-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S500000x128 : Shape := ⟨2, ![500000, 128]⟩
abbrev S64x64 : Shape := ⟨2, ![64, 64]⟩
abbrev S384x512 : Shape := ⟨2, ![384, 512]⟩
abbrev S512 : Shape := ⟨1, ![512]⟩
abbrev S512x128 : Shape := ⟨2, ![512, 128]⟩
abbrev S128 : Shape := ⟨1, ![128]⟩
abbrev S448x1024 : Shape := ⟨2, ![448, 1024]⟩
abbrev S1024 : Shape := ⟨1, ![1024]⟩
abbrev S1024x256 : Shape := ⟨2, ![1024, 256]⟩
abbrev S256 : Shape := ⟨1, ![256]⟩
abbrev S2x500000 : Shape := ⟨2, ![2, 500000]⟩
abbrev S50000 : Shape := ⟨1, ![50000]⟩
abbrev S_ : Shape := ⟨0, ![]⟩
abbrev S1x500000 : Shape := ⟨2, ![1, 500000]⟩
abbrev S500000 : Shape := ⟨1, ![500000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S64x64 : S_.BroadcastsInDim S64x64 (![] : Fin 0 → Fin S64x64.rank)
  reducesTo_S64x64_S_d0_1 : S64x64.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S448x1024 : S_.BroadcastsInDim S448x1024 (![] : Fin 0 → Fin S448x1024.rank)
  reducesTo_S448x1024_S_d0_1 : S448x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg14 : IVec S50000 32) (main_v63 : IVec S_ 1) (main_v65 : IVec S500000 32) (main_v67 : IVec S500000 1) (main_c_25 : IVec S_ 32) : IVec S_ 1 :=
  let main_v68 : IVec S500000 32 := broadcastInDim S500000 ![] bcast_S_S500000 main_c_25
  let main_v69 : IVec S500000 1 := cmpi .slt main_v65 main_v68
  let main_v70 : IVec S500000 1 := andi main_v67 main_v69
  let main_c_26 : IVec S_ 1 := constantI S_ 1 1#1
  let main_v71 : IVec S_ 1 := (fun x v => Host.reduce IntOp.andi x v reducesTo_S500000_S_d0 h_S_) main_v70 main_c_26
  let main_v72 : IVec S_ 1 := andi main_v63 main_v71
  let main_c_27 : IVec S_ 32 := constantI S_ 32 0#32
  let main_v73 : IVec S50000 32 := broadcastInDim S50000 ![] bcast_S_S50000 main_c_27
  let main_v74 : IVec S50000 1 := cmpi .sge main_arg14 main_v73
  let main_c_28 : IVec S_ 32 := constantI S_ 32 64#32
  let main_v75 : IVec S50000 32 := broadcastInDim S50000 ![] bcast_S_S50000 main_c_28
  let main_v76 : IVec S50000 1 := cmpi .slt main_arg14 main_v75
  let main_v77 : IVec S50000 1 := andi main_v74 main_v76
  let main_c_29 : IVec S_ 1 := constantI S_ 1 1#1
  let main_v78 : IVec S_ 1 := (fun x v => Host.reduce IntOp.andi x v reducesTo_S50000_S_d0 h_S_) main_v77 main_c_29
  let main_v79 : IVec S_ 1 := andi main_v72 main_v78
  main_v79

def fn_part3 {F : FTy → Type} [FloatOps F] (main_arg11 : FVec F S256 .f32) (main_arg12 : FVec F S256 .f32) (main_arg13 : IVec S2x500000 32) (main_arg14 : IVec S50000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : IVec S1x500000 32 := (extractStridedSlice S1x500000 ![0, 0] · slices_S2x500000_S1x500000_0_0) main_arg13
  let main_v65 : IVec S500000 32 := shapeCast S500000 main_v64 shapeCasts_S1x500000_S500000
  let main_c_24 : IVec S_ 32 := constantI S_ 32 0#32
  let main_v66 : IVec S500000 32 := broadcastInDim S500000 ![] bcast_S_S500000 main_c_24
  let main_v67 : IVec S500000 1 := cmpi .sge main_v65 main_v66
  let main_c_25 : IVec S_ 32 := constantI S_ 32 50000#32
  fn_part4 (F := F) main_arg14 main_v63 main_v65 main_v67 main_c_25

def fn_part2 {F : FTy → Type} [FloatOps F] (main_arg7 : FVec F S448x1024 .f32) (main_arg8 : FVec F S1024 .f32) (main_arg9 : FVec F S1024x256 .f32) (main_arg10 : FVec F S256 .f32) (main_arg11 : FVec F S256 .f32) (main_arg12 : FVec F S256 .f32) (main_arg13 : IVec S2x500000 32) (main_arg14 : IVec S50000 32) (main_v33 : IVec S_ 1) : IVec S_ 1 :=
  let main_v34 : FVec F S448x1024 .f32 := Host.absf main_arg7
  let main_cst_12 : FVec F S_ .f32 := constant S_ .f32 0x7F800000#32
  let main_v35 : FVec F S448x1024 .f32 := broadcastInDim S448x1024 ![] bcast_S_S448x1024 main_cst_12
  let main_v36 : IVec S448x1024 1 := cmpf .olt main_v34 main_v35
  let main_c_13 : IVec S_ 1 := constantI S_ 1 1#1
  let main_v37 : IVec S_ 1 := (fun x v => Host.reduce IntOp.andi x v reducesTo_S448x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S512 .f32) (main_arg5 : FVec F S512x128 .f32) (main_arg6 : FVec F S128 .f32) (main_arg7 : FVec F S448x1024 .f32) (main_arg8 : FVec F S1024 .f32) (main_arg9 : FVec F S1024x256 .f32) (main_arg10 : FVec F S256 .f32) (main_arg11 : FVec F S256 .f32) (main_arg12 : FVec F S256 .f32) (main_arg13 : IVec S2x500000 32) (main_arg14 : IVec S50000 32) (main_v13 : IVec S_ 1) (main_v16 : IVec S384x512 1) : IVec S_ 1 :=
  let main_c_5 : IVec S_ 1 := constantI S_ 1 1#1
  let main_v17 : IVec S_ 1 := (fun x v => Host.reduce IntOp.andi x v reducesTo_S384x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x256 .f32) (main_arg1 : FVec F S500000x128 .f32) (main_arg2 : FVec F S64x64 .f32) (main_arg3 : FVec F S384x512 .f32) (main_arg4 : FVec F S512 .f32) (main_arg5 : FVec F S512x128 .f32) (main_arg6 : FVec F S128 .f32) (main_arg7 : FVec F S448x1024 .f32) (main_arg8 : FVec F S1024 .f32) (main_arg9 : FVec F S1024x256 .f32) (main_arg10 : FVec F S256 .f32) (main_arg11 : FVec F S256 .f32) (main_arg12 : FVec F S256 .f32) (main_arg13 : IVec S2x500000 32) (main_arg14 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S384x512 .f32 := Host.absf main_arg3
  let main_cst_4 : FVec F S_ .f32 := constant S_ .f32 0x7F800000#32
  let main_v15 : FVec F S384x512 .f32 := broadcastInDim S384x512 ![] bcast_S_S384x512 main_cst_4
  let main_v16 : IVec S384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x256 : Shape := ⟨2, ![50000, 256]⟩
abbrev S500000x128 : Shape := ⟨2, ![500000, 128]⟩
abbrev S64x64 : Shape := ⟨2, ![64, 64]⟩
abbrev S384x512 : Shape := ⟨2, ![384, 512]⟩
abbrev S512 : Shape := ⟨1, ![512]⟩
abbrev S512x128 : Shape := ⟨2, ![512, 128]⟩
abbrev S128 : Shape := ⟨1, ![128]⟩
abbrev S448x1024 : Shape := ⟨2, ![448, 1024]⟩
abbrev S1024 : Shape := ⟨1, ![1024]⟩
abbrev S1024x256 : Shape := ⟨2, ![1024, 256]⟩
abbrev S256 : Shape := ⟨1, ![256]⟩
abbrev S2x500000 : Shape := ⟨2, ![2, 500000]⟩
abbrev S50000 : Shape := ⟨1, ![50000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x256 : Shape := ⟨2, ![500000, 256]⟩
abbrev S5000x256 : Shape := ⟨2, ![5000, 256]⟩
abbrev S5000x128 : Shape := ⟨2, ![5000, 128]⟩
abbrev S5000x384 : Shape := ⟨2, ![5000, 384]⟩
abbrev S5000x512 : Shape := ⟨2, ![5000, 512]⟩
abbrev S1x512 : Shape := ⟨2, ![1, 512]⟩
abbrev S1x128 : Shape := ⟨2, ![1, 128]⟩
abbrev S50000x128 : Shape := ⟨2, ![50000, 128]⟩
abbrev S50000x1 : Shape := ⟨2, ![50000, 1]⟩
abbrev S50000x64 : Shape := ⟨2, ![50000, 64]⟩
abbrev S2000x256 : Shape := ⟨2, ![2000, 256]⟩
abbrev S2000x128 : Shape := ⟨2, ![2000, 128]⟩
abbrev S2000x64 : Shape := ⟨2, ![2000, 64]⟩
abbrev S2000x448 : Shape := ⟨2, ![2000, 448]⟩
abbrev S2000x1024 : Shape := ⟨2, ![2000, 1024]⟩
abbrev S1x1024 : Shape := ⟨2, ![1, 1024]⟩
abbrev S1x256 : Shape := ⟨2, ![1, 256]⟩
abbrev S2000 : Shape := ⟨1, ![2000]⟩
abbrev S2000x1 : Shape := ⟨2, ![2000, 1]⟩

abbrev nBuf : Space → Nat
  | .hbm => 89
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S500000x128, .f32⟩
  | .hbm, ⟨2, _⟩ => ⟨S64x64, .f32⟩
  | .hbm, ⟨3, _⟩ => ⟨S384x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S448x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S2x500000, .i32⟩
  | .hbm, ⟨14, _⟩ => ⟨S50000, .i32⟩
  | .hbm, ⟨15, _⟩ => ⟨S1x500000, .i32⟩
  | .hbm, ⟨16, _⟩ => ⟨S500000, .i32⟩
  | .hbm, ⟨17, _⟩ => ⟨S1x500000, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S1, .i32⟩
  | .hbm, ⟨28, _⟩ => ⟨S_, .i32⟩
  | .hbm, ⟨29, _⟩ => ⟨S500000x1, .i32⟩
  | .hbm, ⟨30, _⟩ => ⟨S500000x1, .i1⟩
  | .hbm, ⟨31, _⟩ => ⟨S1x1, .i32⟩
  | .hbm, ⟨32, _⟩ => ⟨S500000x1, .i32⟩
  | .hbm, ⟨33, _⟩ => ⟨S500000x1, .i1⟩
  | .hbm, ⟨34, _⟩ => ⟨S500000x1, .i1⟩
  | .hbm, ⟨35, _⟩ => ⟨S_, .i1⟩
  | .hbm, ⟨36, _⟩ => ⟨S500000, .i1⟩
  | .hbm, ⟨37, _⟩ => ⟨S500000x256, .f32⟩
  | .hbm, ⟨38, _⟩ => ⟨S500000x256, .i1⟩
  | .hbm, ⟨39, _⟩ => ⟨S_, .f32⟩
  | .hbm, ⟨40, _⟩ => ⟨S500000x256, .f32⟩
  | .hbm, ⟨41, _⟩ => ⟨S500000x256, .f32⟩
  | .hbm, ⟨42, _⟩ => ⟨S500000x256, .bf16⟩
  | .hbm, ⟨43, _⟩ => ⟨S500000x128, .bf16⟩
  | .hbm, ⟨44, _⟩ => ⟨S384x512, .bf16⟩
  | .hbm, ⟨45, _⟩ => ⟨S512x128, .bf16⟩
  | .hbm, ⟨46, _⟩ => ⟨S448x1024, .bf16⟩
  | .hbm, ⟨47, _⟩ => ⟨S1024x256, .bf16⟩
  | .hbm, ⟨48, _⟩ => ⟨S500000x128, .f32⟩
  | .hbm, ⟨49, _⟩ => ⟨S_, .f32⟩
  | .hbm, ⟨50, _⟩ => ⟨S50000x128, .f32⟩
  | .hbm, ⟨51, _⟩ => ⟨S500000x1, .i32⟩
  | .hbm, ⟨52, _⟩ => ⟨S50000x128, .f32⟩
  | .hbm, ⟨53, _⟩ => ⟨S_, .f32⟩
  | .hbm, ⟨54, _⟩ => ⟨S500000, .f32⟩
  | .hbm, ⟨55, _⟩ => ⟨S_, .f32⟩
  | .hbm, ⟨56, _⟩ => ⟨S50000, .f32⟩
  | .hbm, ⟨57, _⟩ => ⟨S500000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S50000, .i32⟩
  | .hbm, ⟨67, _⟩ => ⟨S50000, .i1⟩
  | .hbm, ⟨68, _⟩ => ⟨S_, .i32⟩
  | .hbm, ⟨69, _⟩ => ⟨S50000, .i32⟩
  | .hbm, ⟨70, _⟩ => ⟨S50000, .i32⟩
  | .hbm, ⟨71, _⟩ => ⟨S50000, .i32⟩
  | .hbm, ⟨72, _⟩ => ⟨S50000x1, .i32⟩
  | .hbm, ⟨73, _⟩ => ⟨S1, .i32⟩
  | .hbm, ⟨74, _⟩ => ⟨S_, .i32⟩
  | .hbm, ⟨75, _⟩ => ⟨S50000x1, .i32⟩
  | .hbm, ⟨76, _⟩ => ⟨S50000x1, .i1⟩
  | .hbm, ⟨77, _⟩ => ⟨S1x1, .i32⟩
  | .hbm, ⟨78, _⟩ => ⟨S50000x1, .i32⟩
  | .hbm, ⟨79, _⟩ => ⟨S50000x1, .i1⟩
  | .hbm, ⟨80, _⟩ => ⟨S50000x1, .i1⟩
  | .hbm, ⟨81, _⟩ => ⟨S_, .i1⟩
  | .hbm, ⟨82, _⟩ => ⟨S50000, .i1⟩
  | .hbm, ⟨83, _⟩ => ⟨S50000x64, .f32⟩
  | .hbm, ⟨84, _⟩ => ⟨S50000x64, .i1⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S50000x256, .f32⟩
  | .local _ .vmem, ⟨0, _⟩ => ⟨S5000x256, .bf16⟩
  | .local _ .vmem, ⟨1, _⟩ => ⟨S5000x256, .bf16⟩
  | .local _ .vmem, ⟨2, _⟩ => ⟨S5000x128, .bf16⟩
  | .local _ .vmem, ⟨3, _⟩ => ⟨S5000x128, .bf16⟩
  | .local _ .vmem, ⟨4, _⟩ => ⟨S384x512, .bf16⟩
  | .local _ .vmem, ⟨5, _⟩ => ⟨S512, .f32⟩
  | .local _ .vmem, ⟨6, _⟩ => ⟨S512x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x64, .f32⟩
  | .local _ .vmem, ⟨15, _⟩ => ⟨S2000x64, .f32⟩
  | .local _ .vmem, ⟨16, _⟩ => ⟨S448x1024, .bf16⟩
  | .local _ .vmem, ⟨17, _⟩ => ⟨S1024, .f32⟩
  | .local _ .vmem, ⟨18, _⟩ => ⟨S1024x256, .bf16⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_0 : Ref sig .tc := ⟨.hbm, 53, rfl⟩
abbrev main_v15 : Ref sig .tc := ⟨.hbm, 54, rfl⟩
abbrev main_cst_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_2 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v24 : Ref sig .tc := ⟨.hbm, 87, rfl⟩
abbrev main_v25 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S448x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x256_S5000x128_S5000x384_d1 : Shape.Concatenates [S5000x256, S5000x128] S5000x384 1
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S512_S512_0 : ∀ a, (![0] : Fin 1 → Nat) a + S512.size a ≤ S512.size a
  h_S512 : 0 < S512.numel
  shapeCasts_S512_S1x512 : S512.ShapeCasts S1x512
  broadcasts_S1x512_S5000x512 : S1x512.Broadcasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x64_0 : S50000.BroadcastsInDim S50000x64 (![0] : Fin 1 → Fin S50000x64.rank)
  bcast_S_S50000x64 : S_.BroadcastsInDim S50000x64 (![] : Fin 0 → Fin S50000x64.rank)
  inb_S2000x256_S2000x256_0_0 : ∀ a, (![0, 0] : Fin 2 → Nat) a + S2000x256.size a ≤ S2000x256.size a
  h_S2000x256 : 0 < S2000x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x256_S2000x128_S2000x64_S2000x448_d1 : Shape.Concatenates [S2000x256, S2000x128, S2000x64] S2000x448 1
  inb_S448x1024_S448x1024_0_0 : ∀ a, (![0, 0] : Fin 2 → Nat) a + S448x1024.size a ≤ S448x1024.size a
  h_S448x1024 : 0 < S448x1024.numel
  shapeCasts_S448x1024_S448x1024 : S448x1024.ShapeCasts S448x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2000x1024 : S1x1024.Broadcasts S2000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  gather_S50000x256_S500000x1_S500000x256_1_0_n_n_0_1_1256_wf : GatherDims.WF S50000x256 S500000x1 S500000x256 [1] [0] [] [0] [] 1 ![1, 256]
  dot_S5000x384_S384x512_S5000x512_1_0_0_1_n_n_wf : DotDims.WF S5000x384 S384x512 S5000x512 [1] [0] [0] [1] [] []
  dot_S5000x512_S512x128_S5000x128_1_0_0_1_n_n_wf : DotDims.WF S5000x512 S512x128 S5000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S64x64_S50000x1_S50000x64_1_0_n_n_0_1_164_wf : GatherDims.WF S64x64 S50000x1 S50000x64 [1] [0] [] [0] [] 1 ![1, 64]
  dot_S2000x448_S448x1024_S2000x1024_1_0_0_1_n_n_wf : DotDims.WF S2000x448 S448x1024 S2000x1024 [1] [0] [0] [1] [] []
  dot_S2000x1024_S1024x256_S2000x256_1_0_0_1_n_n_wf : DotDims.WF S2000x1024 S1024x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .bf16 = 32 ∨ (Rect.block (s := S500000x256) S5000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x512.size a ≤ S384x512.size a
  hwx0_2 : ∀ i : grid0.Coords, EltTy.bits .bf16 = 32 ∨ (Rect.block (s := S384x512) S384x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S500000x128.size a
  hwx0_6 : ∀ i : grid0.Coords, EltTy.bits .f32 = 32 ∨ (Rect.block (s := S500000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S448x1024.size a ≤ S448x1024.size a
  hwx1_3 : ∀ i : grid1.Coords, EltTy.bits .bf16 = 32 ∨ (Rect.block (s := S448x1024) S448x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S1024x256.size a
  hwx1_5 : ∀ i : grid1.Coords, EltTy.bits .bf16 = 32 ∨ (Rect.block (s := S1024x256) S1024x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S5000x384_S384x512_S5000x512_1_0_0_1_n_n : DotDims S5000x384 S384x512 S5000x512 where
  lhsContracting := [1]
  rhsContracting := [0]
  lhsNonContracting := [0]
  rhsNonContracting := [1]
  lhsBatch := []
  rhsBatch := []
  wf := dot_S5000x384_S384x512_S5000x512_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S2000x448_S448x1024_S2000x1024_1_0_0_1_n_n : DotDims S2000x448 S448x1024 S2000x1024 where
  lhsContracting := [1]
  rhsContracting := [0]
  lhsNonContracting := [0]
  rhsNonContracting := [1]
  lhsBatch := []
  rhsBatch := []
  wf := dot_S2000x448_S448x1024_S2000x1024_1_0_0_1_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.ofSpec (Memref.whole main_v5) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S384x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S448x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1024x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x256 : Shape := ⟨2, ![50000, 256]⟩
abbrev S500000x128 : Shape := ⟨2, ![500000, 128]⟩
abbrev S64x64 : Shape := ⟨2, ![64, 64]⟩
abbrev S384x512 : Shape := ⟨2, ![384, 512]⟩
abbrev S512 : Shape := ⟨1, ![512]⟩
abbrev S512x128 : Shape := ⟨2, ![512, 128]⟩
abbrev S128 : Shape := ⟨1, ![128]⟩
abbrev S448x1024 : Shape := ⟨2, ![448, 1024]⟩
abbrev S1024 : Shape := ⟨1, ![1024]⟩
abbrev S1024x256 : Shape := ⟨2, ![1024, 256]⟩
abbrev S256 : Shape := ⟨1, ![256]⟩
abbrev S2x500000 : Shape := ⟨2, ![2, 500000]⟩
abbrev S50000 : Shape := ⟨1, ![50000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x384 : Shape := ⟨2, ![500000, 384]⟩
abbrev S500000x512 : Shape := ⟨2, ![500000, 512]⟩
abbrev S1x512 : Shape := ⟨2, ![1, 512]⟩
abbrev S1x128 : Shape := ⟨2, ![1, 128]⟩
abbrev S50000x128 : Shape := ⟨2, ![50000, 128]⟩
abbrev S50000x1 : Shape := ⟨2, ![50000, 1]⟩
abbrev S50000x64 : Shape := ⟨2, ![50000, 64]⟩
abbrev S50000x448 : Shape := ⟨2, ![50000, 448]⟩
abbrev S50000x1024 : Shape := ⟨2, ![50000, 1024]⟩
abbrev S1x1024 : Shape := ⟨2, ![1, 1024]⟩
abbrev S1x256 : Shape := ⟨2, ![1, 256]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S500000x128, .f32⟩
  | .hbm, ⟨2, _⟩ => ⟨S64x64, .f32⟩
  | .hbm, ⟨3, _⟩ => ⟨S384x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S448x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S2x500000, .i32⟩
  | .hbm, ⟨14, _⟩ => ⟨S50000, .i32⟩
  | .hbm, ⟨15, _⟩ => ⟨S1x500000, .i32⟩
  | .hbm, ⟨16, _⟩ => ⟨S500000, .i32⟩
  | .hbm, ⟨17, _⟩ => ⟨S1x500000, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x256, .f32⟩
  | .hbm, ⟨28, _⟩ => ⟨S500000x384, .f32⟩
  | .hbm, ⟨29, _⟩ => ⟨S500000x512, .f32⟩
  | .hbm, ⟨30, _⟩ => ⟨S1x512, .f32⟩
  | .hbm, ⟨31, _⟩ => ⟨S500000x512, .f32⟩
  | .hbm, ⟨32, _⟩ => ⟨S500000x512, .f32⟩
  | .hbm, ⟨33, _⟩ => ⟨S_, .f32⟩
  | .hbm, ⟨34, _⟩ => ⟨S500000x512, .f32⟩
  | .hbm, ⟨35, _⟩ => ⟨S500000x512, .f32⟩
  | .hbm, ⟨36, _⟩ => ⟨S500000x128, .f32⟩
  | .hbm, ⟨37, _⟩ => ⟨S1x128, .f32⟩
  | .hbm, ⟨38, _⟩ => ⟨S500000x128, .f32⟩
  | .hbm, ⟨39, _⟩ => ⟨S500000x128, .f32⟩
  | .hbm, ⟨40, _⟩ => ⟨S_, .f32⟩
  | .hbm, ⟨41, _⟩ => ⟨S50000x128, .f32⟩
  | .hbm, ⟨42, _⟩ => ⟨S500000x1, .i32⟩
  | .hbm, ⟨43, _⟩ => ⟨S50000x128, .f32⟩
  | .hbm, ⟨44, _⟩ => ⟨S_, .f32⟩
  | .hbm, ⟨45, _⟩ => ⟨S500000, .f32⟩
  | .hbm, ⟨46, _⟩ => ⟨S_, .f32⟩
  | .hbm, ⟨47, _⟩ => ⟨S50000, .f32⟩
  | .hbm, ⟨48, _⟩ => ⟨S500000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S50000, .i32⟩
  | .hbm, ⟨58, _⟩ => ⟨S50000, .i1⟩
  | .hbm, ⟨59, _⟩ => ⟨S_, .i32⟩
  | .hbm, ⟨60, _⟩ => ⟨S50000, .i32⟩
  | .hbm, ⟨61, _⟩ => ⟨S50000, .i32⟩
  | .hbm, ⟨62, _⟩ => ⟨S50000, .i32⟩
  | .hbm, ⟨63, _⟩ => ⟨S50000x1, .i32⟩
  | .hbm, ⟨64, _⟩ => ⟨S50000x64, .f32⟩
  | .hbm, ⟨65, _⟩ => ⟨S50000x448, .f32⟩
  | .hbm, ⟨66, _⟩ => ⟨S50000x1024, .f32⟩
  | .hbm, ⟨67, _⟩ => ⟨S1x1024, .f32⟩
  | .hbm, ⟨68, _⟩ => ⟨S50000x1024, .f32⟩
  | .hbm, ⟨69, _⟩ => ⟨S50000x1024, .f32⟩
  | .hbm, ⟨70, _⟩ => ⟨S_, .f32⟩
  | .hbm, ⟨71, _⟩ => ⟨S50000x1024, .f32⟩
  | .hbm, ⟨72, _⟩ => ⟨S50000x1024, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000, .f32⟩
  | .hbm, ⟨80, _⟩ => ⟨S50000x1, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x1, .f32⟩
  | .hbm, ⟨97, _⟩ => ⟨S50000x1, .f32⟩
  | .hbm, ⟨98, _⟩ => ⟨S50000x1, .f32⟩
  | .hbm, ⟨99, _⟩ => ⟨S50000x256, .f32⟩
  | .hbm, ⟨100, _⟩ => ⟨S50000x256, .f32⟩
  | .hbm, ⟨101, _⟩ => ⟨S1x256, .f32⟩
  | .hbm, ⟨102, _⟩ => ⟨S50000x256, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x128_S500000x384_d1 : Shape.Concatenates [S500000x256, S500000x128] S500000x384 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x256_S50000x128_S50000x64_S50000x448_d1 : Shape.Concatenates [S50000x256, S50000x128, S50000x64] S50000x448 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  gather_S50000x256_S500000x1_S500000x256_1_0_n_n_0_1_1256_wf : GatherDims.WF S50000x256 S500000x1 S500000x256 [1] [0] [] [0] [] 1 ![1, 256]
  dot_S500000x384_S384x512_S500000x512_1_0_0_1_n_n_wf : DotDims.WF S500000x384 S384x512 S500000x512 [1] [0] [0] [1] [] []
  dot_S500000x512_S512x128_S500000x128_1_0_0_1_n_n_wf : DotDims.WF S500000x512 S512x128 S500000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S64x64_S50000x1_S50000x64_1_0_n_n_0_1_164_wf : GatherDims.WF S64x64 S50000x1 S50000x64 [1] [0] [] [0] [] 1 ![1, 64]
  dot_S50000x448_S448x1024_S50000x1024_1_0_0_1_n_n_wf : DotDims.WF S50000x448 S448x1024 S50000x1024 [1] [0] [0] [1] [] []
  dot_S50000x1024_S1024x256_S50000x256_1_0_0_1_n_n_wf : DotDims.WF S50000x1024 S1024x256 S50000x256 [1] [0] [0] [1] [] []

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S500000x384_S384x512_S500000x512_1_0_0_1_n_n : DotDims S500000x384 S384x512 S500000x512 where
  lhsContracting := [1]
  rhsContracting := [0]
  lhsNonContracting := [0]
  rhsNonContracting := [1]
  lhsBatch := []
  rhsBatch := []
  wf := dot_S500000x384_S384x512_S500000x512_1_0_0_1_n_n_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S50000x448_S448x1024_S50000x1024_1_0_0_1_n_n : DotDims S50000x448 S448x1024 S50000x1024 where
  lhsContracting := [1]
  rhsContracting := [0]
  lhsNonContracting := [0]
  rhsNonContracting := [1]
  lhsBatch := []
  rhsBatch := []
  wf := dot_S50000x448_S448x1024_S50000x1024_1_0_0_1_n_n_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf

class Facts : Prop extends Facts₀ where

variable [Facts]
-- ==== Proof.Spec.lean ====
/-
  What both programs compute, one row at a time, over the extended reals.

  An edge's message is a two-layer perceptron of the edge's source-node features joined with the edge's own
  features: relu(z·W1 + b1)·W2 + b2. A node's update is the same perceptron shape applied to the node's features
  joined with the mean of its incoming messages and its graph's features, added back to the node's features and
  normalised over the feature axis (mean and variance over the 256 features, an epsilon under the reciprocal root,
  then a scale and a shift per feature). Every step acts on one row alone, so a block of rows computes exactly the
  rows of the whole array it was cut from: that is the only fact the tiling needs.

  The literals (zero under the relu, 256 as the number of features, the epsilon) are kept as the float words both
  programs carry; none is evaluated here.
-/
import Idealize.ShloMosaic.PureOps.Ideal
import Idealize.ShloMosaic.Lib.ValueIdx

noncomputable section

namespace Cert.Spec

open Idealize.ShloMosaic Idealize.ShloMosaic.ValueIdx

/-- The word of +0.0: the floor of the relu. -/
abbrev w0 : EReal := Ideal.ofBits .f32 0x00000000#32
/-- The word of 256.0: the number of features a mean is taken over. -/
abbrev w256 : EReal := Ideal.ofBits .f32 0x43800000#32
/-- The word of the epsilon under the reciprocal root. -/
abbrev wEps : EReal := Ideal.ofBits .f32 0x3727C5AC#32

/-- Two feature vectors joined end to end. -/
def cat2 {A B N : ℕ} (hN : A + B = N) (a : Fin A → EReal) (b : Fin B → EReal) (l : Fin N) : EReal :=
  if h : l.val < A then a ⟨l.val, h⟩ else b ⟨l.val - A, by have := l.isLt; omega⟩

/-- Three feature vectors joined end to end. -/
def cat3 {A B C N : ℕ} (hN : A + B + C = N) (a : Fin A → EReal) (b : Fin B → EReal) (c : Fin C → EReal)
    (l : Fin N) : EReal :=
  if h : l.val < A then a ⟨l.val, h⟩
  else if h' : l.val < A + B then b ⟨l.val - A, by omega⟩
  else c ⟨l.val - (A + B), by have := l.isLt; omega⟩

/-- relu(z·W1 + b1)·W2 + b2 at output feature `j`, for one row `z`. -/
def mlpRow {K H O : ℕ} (z : Fin K → EReal) (W1 : Fin K → Fin H → EReal) (b1 : Fin H → EReal)
    (W2 : Fin H → Fin O → EReal) (b2 : Fin O → EReal) (j : Fin O) : EReal :=
  (∑ k : Fin H, max ((∑ l : Fin K, z l * W1 l k) + b1 k) w0 * W2 k j) + b2 j

/-- A row normalised over its 256 features: (y − mean)·(var + eps)^(−1/2)·g + b at feature `j`. -/
def lnRow (y g b : Fin 256 → EReal) (j : Fin 256) : EReal :=
  (y j - Ideal.div (∑ k : Fin 256, y k) w256)
    * Ideal.rsqrt (Ideal.div (∑ k : Fin 256, (y k - Ideal.div (∑ k' : Fin 256, y k') w256) * (y k - Ideal.div (∑ k' : Fin 256, y k') w256)) w256 + wEps)
    * g j + b j

/-- The messages of `n` edges: row `r` is the perceptron of source features `xr r` joined with edge features `ea r`. -/
def edgeOutN (n : ℕ) (xr : (⟨2, ![n, 256]⟩ : Shape).Idx → EReal) (ea : (⟨2, ![n, 128]⟩ : Shape).Idx → EReal)
    (W1 : (⟨2, ![384, 512]⟩ : Shape).Idx → EReal) (b1 : (⟨1, ![512]⟩ : Shape).Idx → EReal)
    (W2 : (⟨2, ![512, 128]⟩ : Shape).Idx → EReal) (b2 : (⟨1, ![128]⟩ : Shape).Idx → EReal) :
    (⟨2, ![n, 128]⟩ : Shape).Idx → EReal := fun i =>
  mlpRow (cat2 (A := 256) (B := 128) (N := 384) rfl (fun l => xr (ix2 ⟨(i 0).val, (i 0).isLt⟩ l)) (fun l => ea (ix2 ⟨(i 0).val, (i 0).isLt⟩ l)))
    (fun l k => W1 (ix2 l k)) (fun k => b1 (ix1 k)) (fun k j => W2 (ix2 k j)) (fun j => b2 (ix1 j)) ⟨(i 1).val, (i 1).isLt⟩

/-- The perceptron-plus-residual row of a node: before normalisation. -/
def nodePreRow (x : Fin 256 → EReal) (agg : Fin 128 → EReal) (ub : Fin 64 → EReal)
    (W3 : (⟨2, ![448, 1024]⟩ : Shape).Idx → EReal) (b3 : (⟨1, ![1024]⟩ : Shape).Idx → EReal)
    (W4 : (⟨2, ![1024, 256]⟩ : Shape).Idx → EReal) (b4 : (⟨1, ![256]⟩ : Shape).Idx → EReal) (j : Fin 256) : EReal :=
  mlpRow (cat3 (A := 256) (B := 128) (C := 64) (N := 448) rfl x agg ub)
    (fun l k => W3 (ix2 l k)) (fun k => b3 (ix1 k)) (fun k j => W4 (ix2 k j)) (fun j => b4 (ix1 j)) j + x j

/-- The updates of `n` nodes: row `r` is the normalised perceptron-plus-residual of node features `x r`, mean message
    `agg r` and graph features `ub r`. -/
def nodeOutN (n : ℕ) (x : (⟨2, ![n, 256]⟩ : Shape).Idx → EReal) (agg : (⟨2, ![n, 128]⟩ : Shape).Idx → EReal)
    (ub : (⟨2, ![n, 64]⟩ : Shape).Idx → EReal)
    (W3 : (⟨2, ![448, 1024]⟩ : Shape).Idx → EReal) (b3 : (⟨1, ![1024]⟩ : Shape).Idx → EReal)
    (W4 : (⟨2, ![1024, 256]⟩ : Shape).Idx → EReal) (b4 : (⟨1, ![256]⟩ : Shape).Idx → EReal)
    (g : (⟨1, ![256]⟩ : Shape).Idx → EReal) (b : (⟨1, ![256]⟩ : Shape).Idx → EReal) :
    (⟨2, ![n, 256]⟩ : Shape).Idx → EReal := fun i =>
  lnRow (nodePreRow (fun l => x (ix2 ⟨(i 0).val, (i 0).isLt⟩ l)) (fun l => agg (ix2 ⟨(i 0).val, (i 0).isLt⟩ l))
      (fun l => ub (ix2 ⟨(i 0).val, (i 0).isLt⟩ l)) W3 b3 W4 b4)
    (fun j => g (ix1 j)) (fun j => b (ix1 j)) ⟨(i 1).val, (i 1).isLt⟩

/-- A block of edge rows computes the rows of the whole array it was cut from: if block row `p` of each input is
    array row `r`, the block's message at `(p, q)` is the array's at `(r, q)`. -/
theorem edgeOutN_row {n N : ℕ} (xrB : (⟨2, ![n, 256]⟩ : Shape).Idx → EReal) (eaB : (⟨2, ![n, 128]⟩ : Shape).Idx → EReal)
    (xr : (⟨2, ![N, 256]⟩ : Shape).Idx → EReal) (ea : (⟨2, ![N, 128]⟩ : Shape).Idx → EReal)
    (W1 : (⟨2, ![384, 512]⟩ : Shape).Idx → EReal) (b1 : (⟨1, ![512]⟩ : Shape).Idx → EReal)
    (W2 : (⟨2, ![512, 128]⟩ : Shape).Idx → EReal) (b2 : (⟨1, ![128]⟩ : Shape).Idx → EReal)
    (p : Fin n) (r : Fin N) (q : Fin 128)
    (hx : ∀ l, xrB (ix2 p l) = xr (ix2 r l)) (he : ∀ l, eaB (ix2 p l) = ea (ix2 r l)) :
    edgeOutN n xrB eaB W1 b1 W2 b2 (ix2 p q) = edgeOutN N xr ea W1 b1 W2 b2 (ix2 r q) := by
  show mlpRow (cat2 rfl (fun l => xrB (ix2 p l)) (fun l => eaB (ix2 p l))) _ _ _ _ q
     = mlpRow (cat2 rfl (fun l => xr (ix2 r l)) (fun l => ea (ix2 r l))) _ _ _ _ q
  rw [funext hx, funext he]

/-- The same for a block of node rows. -/
theorem nodeOutN_row {n N : ℕ} (xB : (⟨2, ![n, 256]⟩ : Shape).Idx → EReal) (aggB : (⟨2, ![n, 128]⟩ : Shape).Idx → EReal)
    (ubB : (⟨2, ![n, 64]⟩ : Shape).Idx → EReal)
    (x : (⟨2, ![N, 256]⟩ : Shape).Idx → EReal) (agg : (⟨2, ![N, 128]⟩ : Shape).Idx → EReal)
    (ub : (⟨2, ![N, 64]⟩ : Shape).Idx → EReal)
    (W3 : (⟨2, ![448, 1024]⟩ : Shape).Idx → EReal) (b3 : (⟨1, ![1024]⟩ : Shape).Idx → EReal)
    (W4 : (⟨2, ![1024, 256]⟩ : Shape).Idx → EReal) (b4 : (⟨1, ![256]⟩ : Shape).Idx → EReal)
    (g : (⟨1, ![256]⟩ : Shape).Idx → EReal) (b : (⟨1, ![256]⟩ : Shape).Idx → EReal)
    (p : Fin n) (r : Fin N) (q : Fin 256)
    (hx : ∀ l, xB (ix2 p l) = x (ix2 r l)) (ha : ∀ l, aggB (ix2 p l) = agg (ix2 r l))
    (hu : ∀ l, ubB (ix2 p l) = ub (ix2 r l)) :
    nodeOutN n xB aggB ubB W3 b3 W4 b4 g b (ix2 p q) = nodeOutN N x agg ub W3 b3 W4 b4 g b (ix2 r q) := by
  show lnRow (nodePreRow (fun l => xB (ix2 p l)) (fun l => aggB (ix2 p l)) (fun l => ubB (ix2 p l)) W3 b3 W4 b4) _ _ q
     = lnRow (nodePreRow (fun l => x (ix2 r l)) (fun l => agg (ix2 r l)) (fun l => ub (ix2 r l)) W3 b3 W4 b4) _ _ q
  rw [funext hx, funext ha, funext hu]

end Cert.Spec

end
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.EdgeBody.lean ====
/-
  The edge kernel's body, read at an index: the block it stores is the perceptron relu(z·W1 + b1)·W2 + b2 of each
  block row z = (source features ‖ edge features), feature by feature.
-/
import proofs.«426684_j53730040873194_1_alg».proof.Proof.Gen.KernelIdeal.Skeleton
import proofs.«426684_j53730040873194_1_alg».proof.Proof.Spec
import proofs.«426684_j53730040873194_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Cert.KernelIdeal Cert.KernelIdeal.Gen Idealize.ShloMosaic Idealize.ShloMosaic.ValueIdx

/-! ## The joined row -/

/-- Two blocks joined along the feature axis read, at row `p` and feature `l`, the join of their rows `p`:
    the first block's feature `l` below 256, the second block's feature `l - 256` from there on. -/
theorem cat_apply (x : FVec Ideal S5000x256 .bf16) (e : FVec Ideal S5000x128 .bf16) (p : Fin 5000) (l : Fin 384) :
    concatenate S5000x384 1 [⟨S5000x256, x⟩, ⟨S5000x128, e⟩] concatenates_S5000x256_S5000x128_S5000x384_d1 (ix2 p l)
      = Cert.Spec.cat2 (A := 256) (B := 128) (N := 384) rfl (fun l => x (ix2 p l)) (fun l => e (ix2 p l)) l := by
  unfold Cert.Spec.cat2
  by_cases h : l.val < 256
  · rw [dif_pos h]
    refine concatenate_pair_apply_left 1 x e _ (ix2 p l) rfl (ix2 p ⟨l.val, h⟩) fun b => ?_
    match b with
    | ⟨0, _⟩ => rfl
    | ⟨1, _⟩ => rfl
  · rw [dif_neg h]
    refine concatenate_pair_apply_right 1 x e _ (ix2 p l) rfl rfl (ix2 p ⟨l.val - 256, by have := l.isLt; omega⟩) (fun b hb => ?_) ?_
    · match b with
      | ⟨0, _⟩ => rfl
      | ⟨1, _⟩ => exact absurd rfl hb
    · show l.val - 256 + 256 = l.val
      omega

/-! ## The two products

The operand indices of a product at output index `i` and contraction index `q`, coordinate by coordinate: the left
operand is read at (row of `i`, `q`), the right one at (`q`, column of `i`). -/

theorem lhs1_0 (i : S5000x512.Idx) (q : dot_S5000x384_S384x512_S5000x512_1_0_0_1_n_n.contr.Idx) :
    (dot_S5000x384_S384x512_S5000x512_1_0_0_1_n_n.lhsIdx i q 0).val = (i 0).val := by
  unfold DotDims.lhsIdx
  rw [dif_neg (show ¬(0 : Fin S5000x384.rank) ∈ dot_S5000x384_S384x512_S5000x512_1_0_0_1_n_n.lhsBatch by decide), dif_pos (show (0 : Fin S5000x384.rank) ∈ dot_S5000x384_S384x512_S5000x512_1_0_0_1_n_n.lhsNonContracting by decide)]
  rfl
theorem lhs1_1 (i : S5000x512.Idx) (q : dot_S5000x384_S384x512_S5000x512_1_0_0_1_n_n.contr.Idx) :
    (dot_S5000x384_S384x512_S5000x512_1_0_0_1_n_n.lhsIdx i q 1).val = (q ⟨0, by decide⟩).val :=
  dot_S5000x384_S384x512_S5000x512_1_0_0_1_n_n.lhsIdx_val_of_single rfl i q
theorem rhs1_0 (i : S5000x512.Idx) (q : dot_S5000x384_S384x512_S5000x512_1_0_0_1_n_n.contr.Idx) :
    (dot_S5000x384_S384x512_S5000x512_1_0_0_1_n_n.rhsIdx i q 0).val = (q ⟨0, by decide⟩).val :=
  dot_S5000x384_S384x512_S5000x512_1_0_0_1_n_n.rhsIdx_val_of_single rfl i q
theorem rhs1_1 (i : S5000x512.Idx) (q : dot_S5000x384_S384x512_S5000x512_1_0_0_1_n_n.contr.Idx) :
    (dot_S5000x384_S384x512_S5000x512_1_0_0_1_n_n.rhsIdx i q 1).val = (i 1).val := by
  unfold DotDims.rhsIdx
  rw [dif_neg (show ¬(1 : Fin S384x512.rank) ∈ dot_S5000x384_S384x512_S5000x512_1_0_0_1_n_n.rhsBatch by decide), dif_pos (show (1 : Fin S384x512.rank) ∈ dot_S5000x384_S384x512_S5000x512_1_0_0_1_n_n.rhsNonContracting by decide)]
  rfl

/-- The first product into a zero accumulator, at row `p` and hidden feature `k`: the row of the left operand
    against the column of the right one. -/
theorem matmul1_apply (y : FVec Ideal S5000x384 .bf16) (w : FVec Ideal S384x512 .bf16) (p : Fin 5000) (k : Fin 512) :
    matmul dot_S5000x384_S384x512_S5000x512_1_0_0_1_n_n none y w (constant (F := Ideal) S5000x512 .f32 0x00000000#32) (ix2 p k)
      = ∑ l : Fin 384, y (ix2 p l) * w (ix2 l k) := by
  refine (Ideal.matmul_constant_zero_apply _ none y w (ix2 p k)).trans ?_
  rw [← Equiv.sum_comp (contrEquiv1 dot_S5000x384_S384x512_S5000x512_1_0_0_1_n_n 384 rfl rfl).symm]
  refine Finset.sum_congr rfl fun l _ => ?_
  have hl := contrEquiv1_symm_val dot_S5000x384_S384x512_S5000x512_1_0_0_1_n_n 384 rfl rfl l
  have el : dot_S5000x384_S384x512_S5000x512_1_0_0_1_n_n.lhsIdx (ix2 p k) ((contrEquiv1 dot_S5000x384_S384x512_S5000x512_1_0_0_1_n_n 384 rfl rfl).symm l) = ix2 p l := funext fun a => Fin.ext (by
    match a with
    | ⟨0, _⟩ => exact lhs1_0 _ _
    | ⟨1, _⟩ => exact (lhs1_1 _ _).trans hl)
  have er : dot_S5000x384_S384x512_S5000x512_1_0_0_1_n_n.rhsIdx (ix2 p k) ((contrEquiv1 dot_S5000x384_S384x512_S5000x512_1_0_0_1_n_n 384 rfl rfl).symm l) = ix2 l k := funext fun a => Fin.ext (by
    match a with
    | ⟨0, _⟩ => exact (rhs1_0 _ _).trans hl
    | ⟨1, _⟩ => exact rhs1_1 _ _)
  rw [el, er]

theorem lhs2_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs2_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs2_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs2_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The second product into a zero accumulator, at row `p` and output feature `q`. -/
theorem matmul2_apply (y : FVec Ideal S5000x512 .bf16) (w : FVec Ideal S512x128 .bf16) (p : Fin 5000) (q : Fin 128) :
    matmul dot_S5000x512_S512x128_S5000x128_1_0_0_1_n_n none y w (constant (F := Ideal) S5000x128 .f32 0x00000000#32) (ix2 p q)
      = ∑ k : Fin 512, y (ix2 p k) * w (ix2 k q) := by
  refine (Ideal.matmul_constant_zero_apply _ none y w (ix2 p q)).trans ?_
  rw [← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k := funext fun a => Fin.ext (by
    match a with
    | ⟨0, _⟩ => exact lhs2_0 _ _
    | ⟨1, _⟩ => exact (lhs2_1 _ _).trans hk)
  have er : dot_S5000x512_S512x128_S5000x128_1_0_0_1_n_n.rhsIdx (ix2 p q) ((contrEquiv1 dot_S5000x512_S512x128_S5000x128_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-! ## The biases -/

/-- A vector of `b` entries laid out as one row and repeated down `a` rows reads, at `(p, k)`, its entry `k`. -/
theorem bias_apply {α : Type} {a b : ℕ} (hb : b ≠ 1) (v : (⟨1, ![b]⟩ : Shape).Idx → α)
    (hc : (⟨1, ![b]⟩ : Shape).ShapeCasts ⟨2, ![1, b]⟩) (hbr : (⟨2, ![1, b]⟩ : Shape).Broadcasts ⟨2, ![a, b]⟩)
    (p : Fin a) (k : Fin b) :
    broadcastTo ⟨2, ![a, b]⟩ (shapeCast ⟨2, ![1, b]⟩ v hc) hbr (ix2 p k) = v (ix1 k) := by
  rw [broadcastTo_apply _ hbr (ix2 p k) (ix2 (0 : Fin 1) k) (fun ax => by
    match ax with
    | ⟨0, _⟩ => rfl
    | ⟨1, _⟩ =>
      show k.val = if b = 1 then 0 else k.val
      rw [if_neg hb])]
  exact shapeCast_apply v hc _ _ (by
    rw [Shape.rowMajor_val_two, Shape.rowMajor_val_one]
    show k.val = 0 * b + k.val
    omega)

/-! ## The body -/

/-- The stored block of the edge kernel is the block's messages: row p of the result is the perceptron of row p of
    the two loaded feature blocks joined along the feature axis. -/
theorem edge_payload (x0 : Vec Ideal S5000x256 .bf16) (x1 : Vec Ideal S5000x128 .bf16) (x2 : Vec Ideal S384x512 .bf16)
    (x3 : Vec Ideal S512 .f32) (x4 : Vec Ideal S512x128 .bf16) (x5 : Vec Ideal S128 .f32) :
    k0_pay1 (F := Ideal) x0 x1 x2 x3 x4 x5 = Cert.Spec.edgeOutN 5000 x0 x1 x2 x3 x4 x5 := by
  funext j
  obtain ⟨p, q, rfl⟩ : ∃ (p : Fin 5000) (q : Fin 128), j = ix2 p q := ⟨j 0, j 1, eq_ix2 j⟩
  show _ = Cert.Spec.mlpRow (Cert.Spec.cat2 (A := 256) (B := 128) (N := 384) rfl (fun l => x0 (ix2 p l)) (fun l => x1 (ix2 p l)))
    (fun l k => x2 (ix2 l k)) (fun k => x3 (ix1 k)) (fun k j => x4 (ix2 k j)) (fun j => x5 (ix1 j)) q
  unfold k0_pay1 Cert.Spec.mlpRow
  simp only [shapeCast_self]
  rw [addf_apply, matmul2_apply, bias_apply (by decide)]
  refine congrArg (· + x5 (ix1 q)) (Finset.sum_congr rfl fun k _ => ?_)
  rw [truncf_apply, maximumf_apply, addf_apply, matmul1_apply, bias_apply (by decide), broadcast_apply]
  refine congrArg (fun t => max (t + x3 (ix1 k)) Cert.Spec.w0 * x4 (ix2 k q)) (Finset.sum_congr rfl fun l _ => ?_)
  rw [cat_apply, shapeCast_self, shapeCast_self]

end Cert.KernelIdeal.EdgeBody

end
-- ==== Proof.Regions.lean ====
/-
  From blocks to the array, first region: the edge kernel walks the 500000 edges in tiles of 5000; what a grid point
  writes back is the tile's rows of one whole-array function, because every step of the body acts on a row alone,
  and the 100 tiles cover the array. So the region's output array ends holding that whole-array function of the
  region's input arrays.
-/
import proofs.«426684_j53730040873194_1_alg».proof.Proof.Gen.KernelIdeal.Frame
import proofs.«426684_j53730040873194_1_alg».proof.Proof.EdgeBody
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a rank-two buffer, however spelt. -/
theorem zeros2 : (![0, 0] : Fin 2 → Nat) = fun _ => 0 :=
  funext fun a => by match a with | ⟨0, _⟩ => rfl | ⟨1, _⟩ => rfl

/-- The zero offset of a rank-one buffer. -/
theorem zeros1 : (![0] : Fin 1 → Nat) = fun _ => 0 :=
  funext fun a => by match a with | ⟨0, _⟩ => rfl

/-! ## The edge region: 100 tiles of 5000 rows -/

/-- Where each window's block sits at point `t`: the two row-tiled inputs move with the output's row block, which is
    block `t`; the weights and biases stay at block 0; no window moves along the feature axis. -/
theorem edge_idx : ∀ t : Fin cfg0.N,
    win0_0.index t (0 : Fin 2) = win0_6.index t (0 : Fin 2) ∧ win0_0.index t (1 : Fin 2) = 0
  ∧ win0_1.index t (0 : Fin 2) = win0_6.index t (0 : Fin 2) ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = t.val ∧ win0_6.index t (1 : Fin 2) = 0 :=
  (by decide +kernel : ∀ t : Fin grid0.N, _)

/-- The first weight matrix is fetched whole at every point. -/
theorem edge_blk2 (c : Dev nD) (t : Fin cfg0.N) : iblk0 V c 2 t = V c (Pipeline.arrRef spec0 2) := by
  obtain ⟨-, -, -, -, e20, e21, -⟩ := edge_idx t
  funext y
  show V c (Pipeline.arrRef spec0 2) (((cfg0.win 2).blk t).view.emb y) = V c (Pipeline.arrRef spec0 2) y
  congr 1; funext a; apply Fin.ext
  match a with
  | ⟨0, _⟩ => show win0_2.index t (0 : Fin 2) * 384 + 1 * (y 0).val = (y 0).val; omega
  | ⟨1, _⟩ => show win0_2.index t (1 : Fin 2) * 512 + 1 * (y 1).val = (y 1).val; omega

/-- The first bias is fetched whole at every point. -/
theorem edge_blk3 (c : Dev nD) (t : Fin cfg0.N) : iblk0 V c 3 t = V c (Pipeline.arrRef spec0 3) := by
  obtain ⟨-, -, -, -, -, -, e30, -⟩ := edge_idx t
  funext y
  show V c (Pipeline.arrRef spec0 3) (((cfg0.win 3).blk t).view.emb y) = V c (Pipeline.arrRef spec0 3) y
  congr 1; funext a; apply Fin.ext
  match a with
  | ⟨0, _⟩ => show win0_3.index t (0 : Fin 1) * 512 + 1 * (y 0).val = (y 0).val; omega

/-- The second weight matrix is fetched whole at every point. -/
theorem edge_blk4 (c : Dev nD) (t : Fin cfg0.N) : iblk0 V c 4 t = V c (Pipeline.arrRef spec0 4) := by
  obtain ⟨-, -, -, -, -, -, -, e40, e41, -⟩ := edge_idx t
  funext y
  show V c (Pipeline.arrRef spec0 4) (((cfg0.win 4).blk t).view.emb y) = V c (Pipeline.arrRef spec0 4) y
  congr 1; funext a; apply Fin.ext
  match a with
  | ⟨0, _⟩ => show win0_4.index t (0 : Fin 2) * 512 + 1 * (y 0).val = (y 0).val; omega
  | ⟨1, _⟩ => show win0_4.index t (1 : Fin 2) * 128 + 1 * (y 1).val = (y 1).val; omega

/-- The second bias is fetched whole at every point. -/
theorem edge_blk5 (c : Dev nD) (t : Fin cfg0.N) : iblk0 V c 5 t = V c (Pipeline.arrRef spec0 5) := by
  obtain ⟨-, -, -, -, -, -, -, -, -, e50, -⟩ := edge_idx t
  funext y
  show V c (Pipeline.arrRef spec0 5) (((cfg0.win 5).blk t).view.emb y) = V c (Pipeline.arrRef spec0 5) y
  congr 1; funext a; apply Fin.ext
  match a with
  | ⟨0, _⟩ => show win0_5.index t (0 : Fin 1) * 128 + 1 * (y 0).val = (y 0).val; omega

/-- Row `p` of the source-feature tile at point `t` is row `5000 t + p` of the array. -/
theorem edge_blk0 (c : Dev nD) (t : Fin cfg0.N) (p : Fin 5000) (l : Fin 256) (hr : t.val * 5000 + p.val < 500000) :
    (iblk0 V c 0 t : Vec Ideal S5000x256 .bf16) (ix2 p l)
      = (V c (Pipeline.arrRef spec0 0) : S500000x256.Idx → EReal) (ix2 ⟨t.val * 5000 + p.val, hr⟩ l) := by
  obtain ⟨e00, e01, -, -, -, -, -, -, -, -, e60, -⟩ := edge_idx t
  show V c (Pipeline.arrRef spec0 0) (((cfg0.win 0).blk t).view.emb (ix2 p l)) = V c (Pipeline.arrRef spec0 0) _
  congr 1; funext a; apply Fin.ext
  match a with
  | ⟨0, _⟩ => show win0_0.index t (0 : Fin 2) * 5000 + 1 * p.val = t.val * 5000 + p.val; omega
  | ⟨1, _⟩ => show win0_0.index t (1 : Fin 2) * 256 + 1 * l.val = l.val; omega

/-- Row `p` of the edge-feature tile at point `t` is row `5000 t + p` of the array. -/
theorem edge_blk1 (c : Dev nD) (t : Fin cfg0.N) (p : Fin 5000) (l : Fin 128) (hr : t.val * 5000 + p.val < 500000) :
    (iblk0 V c 1 t : Vec Ideal S5000x128 .bf16) (ix2 p l)
      = (V c (Pipeline.arrRef spec0 1) : S500000x128.Idx → EReal) (ix2 ⟨t.val * 5000 + p.val, hr⟩ l) := by
  obtain ⟨-, -, e10, e11, -, -, -, -, -, -, e60, -⟩ := edge_idx t
  show V c (Pipeline.arrRef spec0 1) (((cfg0.win 1).blk t).view.emb (ix2 p l)) = V c (Pipeline.arrRef spec0 1) _
  congr 1; funext a; apply Fin.ext
  match a with
  | ⟨0, _⟩ => show win0_1.index t (0 : Fin 2) * 5000 + 1 * p.val = t.val * 5000 + p.val; omega
  | ⟨1, _⟩ => show win0_1.index t (1 : Fin 2) * 128 + 1 * l.val = l.val; omega

/-- Position `(p, q)` of the output tile at point `t` is position `(5000 t + p, q)` of the output array. -/
theorem edge_out_emb (t : Fin cfg0.N) (p : Fin 5000) (q : Fin 128) (hr : t.val * 5000 + p.val < 500000) :
    ((cfg0.win 6).blk t).view.emb (ix2 p q) = (ix2 (⟨t.val * 5000 + p.val, hr⟩ : Fin 500000) q : S500000x128.Idx) := by
  obtain ⟨-, -, -, -, -, -, -, -, -, -, e60, e61⟩ := edge_idx t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

set_option maxHeartbeats 2000000 in
/-- What point `t` writes back is tile `t` of the messages of all the edges. -/
theorem edge_flushed (c : Dev nD) (t : Fin cfg0.N) :
    (dat0 (F := Ideal) V c).flushed 6 t = ((cfg0.win 6).blk t).view.read (Elt Ideal)
      (Cert.Spec.edgeOutN 500000 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero zeros2]
  simp only [View.ld_unit_zero (S := S5000x256) zeros2, View.ld_unit_zero (S := S5000x128) zeros2,
    View.ld_unit_zero (S := S384x512) zeros2, View.ld_unit_zero (S := S512) zeros1,
    View.ld_unit_zero (S := S512x128) zeros2, View.ld_unit_zero (S := S128) zeros1]
  rw [EdgeBody.edge_payload, edge_blk2, edge_blk3, edge_blk4, edge_blk5]
  have hN : t.val < 100 := t.isLt
  funext j
  obtain ⟨p, q, rfl⟩ : ∃ (p : Fin 5000) (q : Fin 128), j = ix2 p q := ⟨j 0, j 1, eq_ix2 j⟩
  have hr : t.val * 5000 + p.val < 500000 := by have := p.isLt; omega
  show Cert.Spec.edgeOutN 5000 (iblk0 V c 0 t) (iblk0 V c 1 t) _ _ _ _ (ix2 p q)
    = Cert.Spec.edgeOutN 500000 _ _ _ _ _ _ (((cfg0.win 6).blk t).view.emb (ix2 p q))
  rw [edge_out_emb t p q hr]
  exact Cert.Spec.edgeOutN_row _ _ _ _ _ _ _ _ p ⟨t.val * 5000 + p.val, hr⟩ q
    (fun l => edge_blk0 V c t p l hr) (fun l => edge_blk1 V c t p l hr)

/-- An index of the output array is in point `t`'s tile iff each coordinate is in the tile's range on its axis. -/
theorem edge_mem_blk (t : Fin cfg0.N) (i : S500000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v11).slice (win0_6.rect t)).set ↔ _
  rw [View.set_slice_whole, Rect.mem_set_unit]
  exact Iff.rfl

/-- Every index of the output array is in the tile of the point its row falls in. -/
theorem edge_cover (i : S500000x128.Idx) :
    ∃ t : Fin cfg0.N, (cfg0.win 6).flush t = true ∧ i ∈ ((cfg0.win 6).blk t).view.set := by
  have hi0 : (i 0).val < 500000 := (i 0).isLt
  have hi1 : (i 1).val < 128 := (i 1).isLt
  have ht : (i 0).val / 5000 < cfg0.N := by show _ < 100; omega
  obtain ⟨-, -, -, -, -, -, -, -, -, -, e60, e61⟩ := edge_idx ⟨(i 0).val / 5000, ht⟩
  refine ⟨⟨(i 0).val / 5000, ht⟩, flush0_6 _, ?_⟩
  rw [edge_mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    omega

/-- After the first region its output array holds the messages of all 500000 edges, as one function of the region's
    six input arrays as the region found them. -/
theorem edge_final (c : Dev nD) :
    (dat0 (F := Ideal) V c).arrAt 6 cfg0.N
      = Cert.Spec.edgeOutN 500000 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => edge_flushed V c t) edge_cover

end Cert.KernelIdeal.Regions

end
-- ==== Proof.NodeBody.lean ====
/-
  The node kernel's body, read at an index: the block it stores is, row by row, the perceptron of
  (node features ‖ mean message ‖ graph features) plus the node features, normalised over the 256 features.
-/
import proofs.«426684_j53730040873194_1_alg».proof.Proof.Gen.KernelIdeal.Skeleton
import proofs.«426684_j53730040873194_1_alg».proof.Proof.Spec
import proofs.«426684_j53730040873194_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeBody

open Cert.KernelIdeal Cert.KernelIdeal.Gen Idealize.ShloMosaic Idealize.ShloMosaic.ValueIdx

/-! ### The contraction of the first layer: operand indices by coordinates -/

theorem dot1_lhs_0 (i : S2000x1024.Idx) (q : dot_S2000x448_S448x1024_S2000x1024_1_0_0_1_n_n.contr.Idx) :
    (dot_S2000x448_S448x1024_S2000x1024_1_0_0_1_n_n.lhsIdx i q 0).val = (i 0).val := by
  unfold DotDims.lhsIdx
  rw [dif_neg (show ¬(0 : Fin S2000x448.rank) ∈ dot_S2000x448_S448x1024_S2000x1024_1_0_0_1_n_n.lhsBatch by decide), dif_pos (show (0 : Fin S2000x448.rank) ∈ dot_S2000x448_S448x1024_S2000x1024_1_0_0_1_n_n.lhsNonContracting by decide)]
  rfl
theorem dot1_lhs_1 (i : S2000x1024.Idx) (q : dot_S2000x448_S448x1024_S2000x1024_1_0_0_1_n_n.contr.Idx) :
    (dot_S2000x448_S448x1024_S2000x1024_1_0_0_1_n_n.lhsIdx i q 1).val = (q ⟨0, by decide⟩).val :=
  dot_S2000x448_S448x1024_S2000x1024_1_0_0_1_n_n.lhsIdx_val_of_single rfl i q
theorem dot1_rhs_0 (i : S2000x1024.Idx) (q : dot_S2000x448_S448x1024_S2000x1024_1_0_0_1_n_n.contr.Idx) :
    (dot_S2000x448_S448x1024_S2000x1024_1_0_0_1_n_n.rhsIdx i q 0).val = (q ⟨0, by decide⟩).val :=
  dot_S2000x448_S448x1024_S2000x1024_1_0_0_1_n_n.rhsIdx_val_of_single rfl i q
theorem dot1_rhs_1 (i : S2000x1024.Idx) (q : dot_S2000x448_S448x1024_S2000x1024_1_0_0_1_n_n.contr.Idx) :
    (dot_S2000x448_S448x1024_S2000x1024_1_0_0_1_n_n.rhsIdx i q 1).val = (i 1).val := by
  unfold DotDims.rhsIdx
  rw [dif_neg (show ¬(1 : Fin S448x1024.rank) ∈ dot_S2000x448_S448x1024_S2000x1024_1_0_0_1_n_n.rhsBatch by decide), dif_pos (show (1 : Fin S448x1024.rank) ∈ dot_S2000x448_S448x1024_S2000x1024_1_0_0_1_n_n.rhsNonContracting by decide)]
  rfl

/-- A [2000, 448] by [448, 1024] product into the zero accumulator, at (p, k): the sum over the 448 contracted features. -/
theorem dot1_apply (a : FVec Ideal S2000x448 .bf16) (w : FVec Ideal S448x1024 .bf16) (p : Fin 2000) (k : Fin 1024) :
    matmul dot_S2000x448_S448x1024_S2000x1024_1_0_0_1_n_n none a w (constant (F := Ideal) S2000x1024 .f32 0x00000000#32) (ix2 p k)
      = ∑ l : Fin 448, a (ix2 p l) * w (ix2 l k) := by
  refine (Ideal.matmul_constant_zero_apply dot_S2000x448_S448x1024_S2000x1024_1_0_0_1_n_n none a w (ix2 p k)).trans ?_
  rw [← Equiv.sum_comp (contrEquiv1 dot_S2000x448_S448x1024_S2000x1024_1_0_0_1_n_n 448 rfl rfl).symm]
  refine Finset.sum_congr rfl fun l _ => ?_
  have hk := contrEquiv1_symm_val dot_S2000x448_S448x1024_S2000x1024_1_0_0_1_n_n 448 rfl rfl l
  have el : dot_S2000x448_S448x1024_S2000x1024_1_0_0_1_n_n.lhsIdx (ix2 p k) ((contrEquiv1 dot_S2000x448_S448x1024_S2000x1024_1_0_0_1_n_n 448 rfl rfl).symm l) = ix2 p l := funext fun c => Fin.ext (by
    match c with
    | ⟨0, _⟩ => exact dot1_lhs_0 _ _
    | ⟨1, _⟩ => exact (dot1_lhs_1 _ _).trans hk)
  have er : dot_S2000x448_S448x1024_S2000x1024_1_0_0_1_n_n.rhsIdx (ix2 p k) ((contrEquiv1 dot_S2000x448_S448x1024_S2000x1024_1_0_0_1_n_n 448 rfl rfl).symm l) = ix2 l k := funext fun c => Fin.ext (by
    match c with
    | ⟨0, _⟩ => exact (dot1_rhs_0 _ _).trans hk
    | ⟨1, _⟩ => exact dot1_rhs_1 _ _)
  rw [el, er]

/-! ### The contraction of the second layer: operand indices by coordinates -/

theorem dot2_lhs_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem dot2_lhs_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
theorem dot2_rhs_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
theorem dot2_rhs_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

/-- A [2000, 1024] by [1024, 256] product into the zero accumulator, at (p, k): the sum over the 1024 contracted features. -/
theorem dot2_apply (a : FVec Ideal S2000x1024 .bf16) (w : FVec Ideal S1024x256 .bf16) (p : Fin 2000) (k : Fin 256) :
    matmul dot_S2000x1024_S1024x256_S2000x256_1_0_0_1_n_n none a w (constant (F := Ideal) S2000x256 .f32 0x00000000#32) (ix2 p k)
      = ∑ l : Fin 1024, a (ix2 p l) * w (ix2 l k) := by
  refine (Ideal.matmul_constant_zero_apply dot_S2000x1024_S1024x256_S2000x256_1_0_0_1_n_n none a w (ix2 p k)).trans ?_
  rw [← Equiv.sum_comp (contrEquiv1 dot_S2000x1024_S1024x256_S2000x256_1_0_0_1_n_n 1024 rfl rfl).symm]
  refine Finset.sum_congr rfl fun l _ => ?_
  have hk := contrEquiv1_symm_val dot_S2000x1024_S1024x256_S2000x256_1_0_0_1_n_n 1024 rfl rfl l
  have el : dot_S2000x1024_S1024x256_S2000x256_1_0_0_1_n_n.lhsIdx (ix2 p k) ((contrEquiv1 dot_S2000x1024_S1024x256_S2000x256_1_0_0_1_n_n 1024 rfl rfl).symm l) = ix2 p l := funext fun c => Fin.ext (by
    match c with
    | ⟨0, _⟩ => exact dot2_lhs_0 _ _
    | ⟨1, _⟩ => exact (dot2_lhs_1 _ _).trans hk)
  have er : dot_S2000x1024_S1024x256_S2000x256_1_0_0_1_n_n.rhsIdx (ix2 p k) ((contrEquiv1 dot_S2000x1024_S1024x256_S2000x256_1_0_0_1_n_n 1024 rfl rfl).symm l) = ix2 l k := funext fun c => Fin.ext (by
    match c with
    | ⟨0, _⟩ => exact (dot2_rhs_0 _ _).trans hk
    | ⟨1, _⟩ => exact dot2_rhs_1 _ _)
  rw [el, er]

/-! ### The three blocks joined along the feature axis -/

/-- The joined block at (p, l) is the joined row p at l: the piece is chosen by where l falls among 256, 128 and 64. -/
theorem cat_apply (x : FVec Ideal S2000x256 .f32) (a : FVec Ideal S2000x128 .f32) (u : FVec Ideal S2000x64 .f32)
    (h : Shape.Concatenates [S2000x256, S2000x128, S2000x64] S2000x448 1) (p : Fin 2000) (l : Fin 448) :
    concatenate S2000x448 1 [⟨S2000x256, x⟩, ⟨S2000x128, a⟩, ⟨S2000x64, u⟩] h (ix2 p l)
      = Cert.Spec.cat3 (A := 256) (B := 128) (C := 64) (N := 448) rfl
          (fun l => x (ix2 p l)) (fun l => a (ix2 p l)) (fun l => u (ix2 p l)) l := by
  unfold Cert.Spec.cat3
  by_cases h1 : l.val < 256
  · rw [dif_pos h1]
    exact concatenate_apply_piece (1 : Fin S2000x448.rank) [⟨S2000x256, x⟩, ⟨S2000x128, a⟩, ⟨S2000x64, u⟩] h (ix2 p l) 0 (by show (0 : ℕ) < 3; omega) S2000x256 x rfl rfl 0 rfl
      (ix2 p ⟨l.val, h1⟩)
      (fun b hb => by
        match b with
        | ⟨0, _⟩ => rfl
        | ⟨1, _⟩ => exact absurd rfl hb)
      (by show 0 + l.val = l.val; omega)
  · rw [dif_neg h1]
    by_cases h2 : l.val < 256 + 128
    · rw [dif_pos h2]
      exact concatenate_apply_piece (1 : Fin S2000x448.rank) [⟨S2000x256, x⟩, ⟨S2000x128, a⟩, ⟨S2000x64, u⟩] h (ix2 p l) 1 (by show (1 : ℕ) < 3; omega) S2000x128 a rfl rfl 256 rfl
        (ix2 p ⟨l.val - 256, by omega⟩)
        (fun b hb => by
          match b with
          | ⟨0, _⟩ => rfl
          | ⟨1, _⟩ => exact absurd rfl hb)
        (by show 256 + (l.val - 256) = l.val; omega)
    · rw [dif_neg h2]
      exact concatenate_apply_piece (1 : Fin S2000x448.rank) [⟨S2000x256, x⟩, ⟨S2000x128, a⟩, ⟨S2000x64, u⟩] h (ix2 p l) 2 (by show (2 : ℕ) < 3; omega) S2000x64 u rfl rfl (256 + 128) rfl
        (ix2 p ⟨l.val - (256 + 128), by have := l.isLt; omega⟩)
        (fun b hb => by
          match b with
          | ⟨0, _⟩ => rfl
          | ⟨1, _⟩ => exact absurd rfl hb)
        (by show 256 + 128 + (l.val - (256 + 128)) = l.val; omega)

/-! ### The perceptron and the residual, row by row -/

/-- A bias cast to one row and broadcast over the rows reads, at (p, k), the bias at k. -/
theorem bias_apply {α : Type} {m n : ℕ} (b : (⟨1, ![n]⟩ : Shape).Idx → α) (hc : (⟨1, ![n]⟩ : Shape).ShapeCasts ⟨2, ![1, n]⟩)
    (hb : (⟨2, ![1, n]⟩ : Shape).Broadcasts ⟨2, ![m, n]⟩) (p : Fin m) (k : Fin n) :
    broadcastTo ⟨2, ![m, n]⟩ (shapeCast ⟨2, ![1, n]⟩ b hc) hb (ix2 p k) = b (ix1 k) :=
  (broadcastTo_1b_ab_apply _ hb p k).trans (shapeCast_a_1a_apply b hc 0 k)

/-- The hidden layer at (p, k): the relu of the joined row p against column k of the first weights, plus the bias. -/
theorem hidden_apply (x : FVec Ideal S2000x256 .f32) (a : FVec Ideal S2000x128 .f32) (u : FVec Ideal S2000x64 .f32)
    (w : FVec Ideal S448x1024 .bf16) (b : FVec Ideal S1024 .f32)
    (hcat : Shape.Concatenates [S2000x256, S2000x128, S2000x64] S2000x448 1) (hlt : FTy.bits .bf16 < FTy.bits .f32)
    (hc : S1024.ShapeCasts S1x1024) (hb : S1x1024.Broadcasts S2000x1024) (p : Fin 2000) (k : Fin 1024) :
    (truncf .bf16 (maximumf (addf (matmul dot_S2000x448_S448x1024_S2000x1024_1_0_0_1_n_n none
        (truncf .bf16 (concatenate S2000x448 1 [⟨S2000x256, x⟩, ⟨S2000x128, a⟩, ⟨S2000x64, u⟩] hcat) hlt) w
        (constant (F := Ideal) S2000x1024 .f32 0x00000000#32)) (broadcastTo S2000x1024 (shapeCast S1x1024 b hc) hb))
        (broadcast S2000x1024 (Scalar.ofBits (F := Ideal) .f32 0x00000000#32))) hlt : FVec Ideal S2000x1024 .bf16) (ix2 p k)
      = max ((∑ l : Fin 448, Cert.Spec.cat3 (A := 256) (B := 128) (C := 64) (N := 448) rfl
          (fun l => x (ix2 p l)) (fun l => a (ix2 p l)) (fun l => u (ix2 p l)) l * w (ix2 l k)) + b (ix1 k)) Cert.Spec.w0 := by
  show max (matmul dot_S2000x448_S448x1024_S2000x1024_1_0_0_1_n_n none
        (truncf .bf16 (concatenate S2000x448 1 [⟨S2000x256, x⟩, ⟨S2000x128, a⟩, ⟨S2000x64, u⟩] hcat) hlt) w
        (constant (F := Ideal) S2000x1024 .f32 0x00000000#32) (ix2 p k)
      + broadcastTo S2000x1024 (shapeCast S1x1024 b hc) hb (ix2 p k)) Cert.Spec.w0 = _
  refine congrArg (fun t => max t Cert.Spec.w0) (congrArg₂ (· + ·) ?_ (bias_apply b hc hb p k))
  refine (dot1_apply _ w p k).trans (Finset.sum_congr rfl fun l _ => ?_)
  exact congrArg (· * w (ix2 l k)) (cat_apply x a u hcat p l)

/-- The block before normalisation, at (p, q): the perceptron of row p of the three joined blocks, plus the node feature. -/
theorem y_apply (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (p : Fin 2000) (q : Fin 256) :
    k1_pay2 (F := Ideal) v0 v1 v3 v7 v10 v17 v20 (ix2 p q)
      = Cert.Spec.nodePreRow (fun l => v0 (ix2 p l)) (fun l => v1 (ix2 p l)) (fun l => v3 (ix2 p l)) v7 v10 v17 v20 q := by
  unfold k1_pay2 Cert.Spec.nodePreRow Cert.Spec.mlpRow
  rw [shapeCast_self v1, shapeCast_self v3, shapeCast_self v7, shapeCast_self v17]
  refine (addf_apply _ _ (ix2 p q)).trans (congrArg (· + v0 (ix2 p q)) ?_)
  refine (addf_apply _ _ (ix2 p q)).trans (congrArg₂ (· + ·) ?_ (bias_apply v20 _ _ p q))
  refine (dot2_apply _ v17 p q).trans (Finset.sum_congr rfl fun k _ => ?_)
  exact congrArg (· * v17 (ix2 k q)) (hidden_apply v0 v1 v3 v7 v10 _ _ _ _ p k)

/-! ### The normalisation over the 256 features -/

/-- Row p of the block before normalisation, as the specification writes it. -/
abbrev yrow (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (p : Fin 2000) : Fin 256 → EReal :=
  Cert.Spec.nodePreRow (fun l => v0 (ix2 p l)) (fun l => v1 (ix2 p l)) (fun l => v3 (ix2 p l)) v7 v10 v17 v20

/-- A row sum kept as a column and divided by a splat: at (p, u), the sum of row p divided by the splat's word. -/
theorem rowsum_div_apply (y : FVec Ideal S2000x256 .f32) (hr : S2000x256.Reduces [1] S2000) (hφ : FKind.Formats .f32)
    (hacc : (0x00000000#32 : BitVec (FTy.bits .f32)) = FKind.add.neutral .f32 hφ) (hc : S2000.ShapeCasts S2000x1)
    (c : BitVec (FTy.bits .f32)) (p : Fin 2000) (u : Fin 1) :
    divf (shapeCast S2000x1 (multiReduction .add [1] S2000 y 0x00000000#32 hr hφ hacc) hc)
        (broadcast S2000x1 (Scalar.ofBits (F := Ideal) .f32 c)) (ix2 p u)
      = Ideal.div (∑ k : Fin 256, y (ix2 p k)) (Ideal.ofBits .f32 c) := by
  refine (divf_apply _ _ (ix2 p u)).trans (congrArg (fun t => Ideal.div t (Ideal.ofBits .f32 c)) ?_)
  refine (Cert.LibColumn.shapeCast_a_a1_apply _ hc p u).trans ?_
  refine (Ideal.multiReduction_add_single y _ hr hφ hacc (ix1 p)).trans ?_
  exact Finset.sum_congr rfl fun k _ => congrArg y (Cert.LibColumn.lift_axis1 hr p k)

/-- The row mean, kept as a column. -/
theorem mean_apply (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (p : Fin 2000) (u : Fin 1) :
    k1_pay3 (F := Ideal) v0 v1 v3 v7 v10 v17 v20 (ix2 p u)
      = Ideal.div (∑ k : Fin 256, yrow v0 v1 v3 v7 v10 v17 v20 p k) Cert.Spec.w256 := by
  unfold k1_pay3
  refine (rowsum_div_apply (k1_pay2 (F := Ideal) v0 v1 v3 v7 v10 v17 v20) _ _ _ _ _ p u).trans ?_
  exact congrArg (fun t => Ideal.div t Cert.Spec.w256) (Finset.sum_congr rfl fun k _ => y_apply v0 v1 v3 v7 v10 v17 v20 p k)

/-- The centred block: each entry less its row's mean. -/
theorem centred_apply (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (p : Fin 2000) (q : Fin 256) :
    k1_pay5 (F := Ideal) v0 v1 v3 v7 v10 v17 v20 (ix2 p q)
      = yrow v0 v1 v3 v7 v10 v17 v20 p q - Ideal.div (∑ k : Fin 256, yrow v0 v1 v3 v7 v10 v17 v20 p k) Cert.Spec.w256 := by
  unfold k1_pay5
  refine (subf_apply _ _ (ix2 p q)).trans (congrArg₂ (· - ·) (y_apply v0 v1 v3 v7 v10 v17 v20 p q) ?_)
  exact (Cert.LibColumn.broadcastTo_a1_ab_apply _ _ p q).trans (mean_apply v0 v1 v3 v7 v10 v17 v20 p 0)

/-- The row variance, kept as a column: the mean of the squared centred entries. -/
theorem var_apply (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (p : Fin 2000) (u : Fin 1) :
    k1_pay4 (F := Ideal) v0 v1 v3 v7 v10 v17 v20 (ix2 p u)
      = Ideal.div (∑ k : Fin 256,
          (yrow v0 v1 v3 v7 v10 v17 v20 p k - Ideal.div (∑ k' : Fin 256, yrow v0 v1 v3 v7 v10 v17 v20 p k') Cert.Spec.w256)
            * (yrow v0 v1 v3 v7 v10 v17 v20 p k - Ideal.div (∑ k' : Fin 256, yrow v0 v1 v3 v7 v10 v17 v20 p k') Cert.Spec.w256)) Cert.Spec.w256 := by
  unfold k1_pay4
  refine (rowsum_div_apply _ _ _ _ _ _ p u).trans ?_
  refine congrArg (fun t => Ideal.div t Cert.Spec.w256) (Finset.sum_congr rfl fun k _ => ?_)
  refine (mulf_apply _ _ (ix2 p k)).trans ?_
  have e := centred_apply v0 v1 v3 v7 v10 v17 v20 p k
  unfold k1_pay5 at e
  exact congrArg₂ (· * ·) e e

/-- The reciprocal root of the variance plus the epsilon, broadcast along the features. -/
theorem scale_apply (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (hb : S2000x1.Broadcasts S2000x256) (p : Fin 2000) (q : Fin 256) :
    broadcastTo S2000x256 (rsqrt (addf (k1_pay4 (F := Ideal) v0 v1 v3 v7 v10 v17 v20) (k1_pay6 (F := Ideal)))) hb (ix2 p q)
      = Ideal.rsqrt (Ideal.div (∑ k : Fin 256,
          (yrow v0 v1 v3 v7 v10 v17 v20 p k - Ideal.div (∑ k' : Fin 256, yrow v0 v1 v3 v7 v10 v17 v20 p k') Cert.Spec.w256)
            * (yrow v0 v1 v3 v7 v10 v17 v20 p k - Ideal.div (∑ k' : Fin 256, yrow v0 v1 v3 v7 v10 v17 v20 p k') Cert.Spec.w256)) Cert.Spec.w256
          + Cert.Spec.wEps) := by
  refine (Cert.LibColumn.broadcastTo_a1_ab_apply _ hb p q).trans ?_
  show Ideal.rsqrt (k1_pay4 (F := Ideal) v0 v1 v3 v7 v10 v17 v20 (ix2 p 0) + Cert.Spec.wEps) = _
  exact congrArg (fun t => Ideal.rsqrt (t + Cert.Spec.wEps)) (var_apply v0 v1 v3 v7 v10 v17 v20 p 0)

/-- The stored block of the node kernel is the block's node updates. -/
theorem node_payload (v0 : Vec Ideal S2000x256 .f32) (v1 : Vec Ideal S2000x128 .f32) (v3 : Vec Ideal S2000x64 .f32)
    (v7 : Vec Ideal S448x1024 .bf16) (v10 : Vec Ideal S1024 .f32) (v17 : Vec Ideal S1024x256 .bf16) (v20 : Vec Ideal S256 .f32)
    (v43 : Vec Ideal S256 .f32) (v47 : Vec Ideal S256 .f32) :
    k1_pay1 (F := Ideal) (k1_pay4 v0 v1 v3 v7 v10 v17 v20) (k1_pay5 v0 v1 v3 v7 v10 v17 v20) (k1_pay6 (F := Ideal)) v43 v47
      = Cert.Spec.nodeOutN 2000 v0 v1 v3 v7 v10 v17 v20 v43 v47 := by
  funext i
  obtain ⟨p, q, rfl⟩ : ∃ p q, i = ix2 p q := ⟨i 0, i 1, eq_ix2 i⟩
  show _ = Cert.Spec.lnRow (yrow v0 v1 v3 v7 v10 v17 v20 p) (fun j => v43 (ix1 j)) (fun j => v47 (ix1 j)) q
  unfold k1_pay1 Cert.Spec.lnRow
  refine (addf_apply _ _ (ix2 p q)).trans (congrArg₂ (· + ·) ?_ (bias_apply v47 _ _ p q))
  refine (mulf_apply _ _ (ix2 p q)).trans (congrArg₂ (· * ·) ?_ (bias_apply v43 _ _ p q))
  refine (mulf_apply _ _ (ix2 p q)).trans (congrArg₂ (· * ·) ?_ ?_)
  · exact centred_apply v0 v1 v3 v7 v10 v17 v20 p q
  · exact scale_apply v0 v1 v3 v7 v10 v17 v20 _ p q

end Cert.KernelIdeal.NodeBody

end
-- ==== Proof.NodeRegion.lean ====
/-
  From blocks to the array, second region: the node kernel walks the 50000 nodes in tiles of 2000; what a grid point
  writes back is the tile's rows of one whole-array function (every step of the body acts on a row alone), and the
  25 tiles cover the array.
-/
import proofs.«426684_j53730040873194_1_alg».proof.Proof.Gen.KernelIdeal.Frame
import proofs.«426684_j53730040873194_1_alg».proof.Proof.NodeBody
import Idealize.ShloMosaic.Lib.Pipeline.Value

set_option maxRecDepth 16384

noncomputable section

namespace Cert.KernelIdeal.NodeRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole-array function the region computes: the updates of all 50000 nodes from the nine input arrays as the
    region finds them. -/
abbrev nodeArr (c : Dev nD) : S50000x256.Idx → EReal :=
  Cert.Spec.nodeOutN 50000 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))

/-! ## The index maps, decided over the 25 grid points -/

theorem zero2 : (![0, 0] : Fin 2 → Nat) = fun _ => 0 := funext fun a => by fin_cases a <;> rfl
theorem zero1 : (![0] : Fin 1 → Nat) = fun _ => 0 := funext fun a => by fin_cases a <;> rfl

/-- The three row-tiled inputs move with the output (tile `t` of each, at feature block 0); the six whole-array
    inputs sit at block 0; the output's tile index is the grid point itself. -/
theorem index_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0
    ∧ win1_9.index t (0 : Fin 2) = t.val ∧ win1_9.index t (1 : Fin 2) = 0 ∧ t.val ≤ 24 :=
  (by decide +kernel : ∀ t : Fin grid1.N, _)

/-- Every tile of the output is some grid point's. -/
theorem index_onto : ∀ q0 : Fin 25, ∃ t : Fin cfg1.N, win1_9.index t (0 : Fin 2) = q0.val ∧ win1_9.index t (1 : Fin 2) = 0 :=
  (by decide +kernel : ∀ q0 : Fin 25, ∃ t : Fin grid1.N, win1_9.index t (0 : Fin 2) = q0.val ∧ win1_9.index t (1 : Fin 2) = 0)

/-- The array row that row `p` of tile `t` is. -/
def rowOf (t : Fin cfg1.N) (p : Fin 2000) : Fin 50000 :=
  ⟨t.val * 2000 + p.val, by have h := (index_facts t).2.2.2.2.2.2.2.2.2.2.2.2.2.2.2.2; have := p.isLt; omega⟩

/-! ## The blocks at a grid point, read off the arrays

A block's coordinate on an axis is its index times the block's extent plus the coordinate inside the block. -/

theorem emb_row0 (t : Fin cfg1.N) (p : Fin 2000) (l : Fin 256) :
    ((cfg1.win 0).blk t).view.emb (ix2 p l) = ix2 (rowOf t p) l := by
  obtain ⟨e00, e01, e10, e11, e20, e21, -, -, -, -, -, -, -, -, e90, e91, -⟩ := index_facts t
  funext a; apply Fin.ext
  match a with
  | ⟨0, _⟩ => show win1_0.index t (0 : Fin 2) * 2000 + 1 * p.val = t.val * 2000 + p.val; omega
  | ⟨1, _⟩ => show win1_0.index t (1 : Fin 2) * 256 + 1 * l.val = l.val; omega

theorem emb_row1 (t : Fin cfg1.N) (p : Fin 2000) (l : Fin 128) :
    ((cfg1.win 1).blk t).view.emb (ix2 p l) = ix2 (rowOf t p) l := by
  obtain ⟨e00, e01, e10, e11, e20, e21, -, -, -, -, -, -, -, -, e90, e91, -⟩ := index_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * l.val = l.val; omega

theorem emb_row2 (t : Fin cfg1.N) (p : Fin 2000) (l : Fin 64) :
    ((cfg1.win 2).blk t).view.emb (ix2 p l) = ix2 (rowOf t p) l := by
  obtain ⟨e00, e01, e10, e11, e20, e21, -, -, -, -, -, -, -, -, e90, e91, -⟩ := index_facts t
  funext a; apply Fin.ext
  match a with
  | ⟨0, _⟩ => show win1_2.index t (0 : Fin 2) * 2000 + 1 * p.val = t.val * 2000 + p.val; omega
  | ⟨1, _⟩ => show win1_2.index t (1 : Fin 2) * 64 + 1 * l.val = l.val; omega

theorem emb_row9 (t : Fin cfg1.N) (p : Fin 2000) (l : Fin 256) :
    ((cfg1.win 9).blk t).view.emb (ix2 p l) = ix2 (rowOf t p) l := by
  obtain ⟨e00, e01, e10, e11, e20, e21, -, -, -, -, -, -, -, -, e90, e91, -⟩ := index_facts t
  funext a; apply Fin.ext
  match a with
  | ⟨0, _⟩ => show win1_9.index t (0 : Fin 2) * 2000 + 1 * p.val = t.val * 2000 + p.val; omega
  | ⟨1, _⟩ => show win1_9.index t (1 : Fin 2) * 256 + 1 * l.val = l.val; omega

theorem emb_whole3 (t : Fin cfg1.N) (y : S448x1024.Idx) : ((cfg1.win 3).blk t).view.emb y = y := by
  obtain ⟨-, -, -, -, -, -, e30, e31, e40, e50, e51, e60, e70, e80, -, -, -⟩ := index_facts t
  funext a; apply Fin.ext
  match a with
  | ⟨0, _⟩ => show win1_3.index t (0 : Fin 2) * 448 + 1 * (y 0).val = (y 0).val; omega
  | ⟨1, _⟩ => show win1_3.index t (1 : Fin 2) * 1024 + 1 * (y 1).val = (y 1).val; omega

theorem emb_whole4 (t : Fin cfg1.N) (y : S1024.Idx) : ((cfg1.win 4).blk t).view.emb y = y := by
  obtain ⟨-, -, -, -, -, -, e30, e31, e40, e50, e51, e60, e70, e80, -, -, -⟩ := index_facts t
  funext a; apply Fin.ext
  match a with
  | ⟨0, _⟩ => show win1_4.index t (0 : Fin 1) * 1024 + 1 * (y 0).val = (y 0).val; omega

theorem emb_whole5 (t : Fin cfg1.N) (y : S1024x256.Idx) : ((cfg1.win 5).blk t).view.emb y = y := by
  obtain ⟨-, -, -, -, -, -, e30, e31, e40, e50, e51, e60, e70, e80, -, -, -⟩ := index_facts t
  funext a; apply Fin.ext
  match a with
  | ⟨0, _⟩ => show win1_5.index t (0 : Fin 2) * 1024 + 1 * (y 0).val = (y 0).val; omega
  | ⟨1, _⟩ => show win1_5.index t (1 : Fin 2) * 256 + 1 * (y 1).val = (y 1).val; omega

theorem emb_whole6 (t : Fin cfg1.N) (y : S256.Idx) : ((cfg1.win 6).blk t).view.emb y = y := by
  obtain ⟨-, -, -, -, -, -, e30, e31, e40, e50, e51, e60, e70, e80, -, -, -⟩ := index_facts t
  funext a; apply Fin.ext
  match a with
  | ⟨0, _⟩ => show win1_6.index t (0 : Fin 1) * 256 + 1 * (y 0).val = (y 0).val; omega

theorem emb_whole7 (t : Fin cfg1.N) (y : S256.Idx) : ((cfg1.win 7).blk t).view.emb y = y := by
  obtain ⟨-, -, -, -, -, -, e30, e31, e40, e50, e51, e60, e70, e80, -, -, -⟩ := index_facts t
  funext a; apply Fin.ext
  match a with
  | ⟨0, _⟩ => show win1_7.index t (0 : Fin 1) * 256 + 1 * (y 0).val = (y 0).val; omega

theorem emb_whole8 (t : Fin cfg1.N) (y : S256.Idx) : ((cfg1.win 8).blk t).view.emb y = y := by
  obtain ⟨-, -, -, -, -, -, e30, e31, e40, e50, e51, e60, e70, e80, -, -, -⟩ := index_facts t
  funext a; apply Fin.ext
  match a with
  | ⟨0, _⟩ => show win1_8.index t (0 : Fin 1) * 256 + 1 * (y 0).val = (y 0).val; omega

theorem iblk_row0 (c : Dev nD) (t : Fin cfg1.N) (p : Fin 2000) (l : Fin 256) :
    iblk1 (F := Ideal) V c 0 t (ix2 p l) = V c (Pipeline.arrRef spec1 0) (ix2 (rowOf t p) l) := by
  show V c (Pipeline.arrRef spec1 0) (((cfg1.win 0).blk t).view.emb (ix2 p l)) = _
  rw [emb_row0]

theorem iblk_row1 (c : Dev nD) (t : Fin cfg1.N) (p : Fin 2000) (l : Fin 128) :
    iblk1 (F := Ideal) V c 1 t (ix2 p l) = V c (Pipeline.arrRef spec1 1) (ix2 (rowOf t p) l) := by
  show V c (Pipeline.arrRef spec1 1) (((cfg1.win 1).blk t).view.emb (ix2 p l)) = _
  rw [emb_row1]

theorem iblk_row2 (c : Dev nD) (t : Fin cfg1.N) (p : Fin 2000) (l : Fin 64) :
    iblk1 (F := Ideal) V c 2 t (ix2 p l) = V c (Pipeline.arrRef spec1 2) (ix2 (rowOf t p) l) := by
  show V c (Pipeline.arrRef spec1 2) (((cfg1.win 2).blk t).view.emb (ix2 p l)) = _
  rw [emb_row2]

theorem iblk_whole3 (c : Dev nD) (t : Fin cfg1.N) :
    (iblk1 (F := Ideal) V c 3 t : S448x1024.Idx → EReal) = V c (Pipeline.arrRef spec1 3) := by
  funext y
  show V c (Pipeline.arrRef spec1 3) (((cfg1.win 3).blk t).view.emb y) = _
  rw [emb_whole3]

theorem iblk_whole4 (c : Dev nD) (t : Fin cfg1.N) :
    (iblk1 (F := Ideal) V c 4 t : S1024.Idx → EReal) = V c (Pipeline.arrRef spec1 4) := by
  funext y
  show V c (Pipeline.arrRef spec1 4) (((cfg1.win 4).blk t).view.emb y) = _
  rw [emb_whole4]

theorem iblk_whole5 (c : Dev nD) (t : Fin cfg1.N) :
    (iblk1 (F := Ideal) V c 5 t : S1024x256.Idx → EReal) = V c (Pipeline.arrRef spec1 5) := by
  funext y
  show V c (Pipeline.arrRef spec1 5) (((cfg1.win 5).blk t).view.emb y) = _
  rw [emb_whole5]

theorem iblk_whole6 (c : Dev nD) (t : Fin cfg1.N) :
    (iblk1 (F := Ideal) V c 6 t : S256.Idx → EReal) = V c (Pipeline.arrRef spec1 6) := by
  funext y
  show V c (Pipeline.arrRef spec1 6) (((cfg1.win 6).blk t).view.emb y) = _
  rw [emb_whole6]

theorem iblk_whole7 (c : Dev nD) (t : Fin cfg1.N) :
    (iblk1 (F := Ideal) V c 7 t : S256.Idx → EReal) = V c (Pipeline.arrRef spec1 7) := by
  funext y
  show V c (Pipeline.arrRef spec1 7) (((cfg1.win 7).blk t).view.emb y) = _
  rw [emb_whole7]

theorem iblk_whole8 (c : Dev nD) (t : Fin cfg1.N) :
    (iblk1 (F := Ideal) V c 8 t : S256.Idx → EReal) = V c (Pipeline.arrRef spec1 8) := by
  funext y
  show V c (Pipeline.arrRef spec1 8) (((cfg1.win 8).blk t).view.emb y) = _
  rw [emb_whole8]

/-! ## What a grid point writes back -/

/-- A tile's update at `(p, q)` is the array's at `(r, q)` when row `p` of each row-tiled block is row `r` of its
    array and the six whole-array blocks are their arrays. -/
theorem tile_eq (xB : S2000x256.Idx → EReal) (gB : S2000x128.Idx → EReal) (uB : S2000x64.Idx → EReal)
    (x : S50000x256.Idx → EReal) (g : S50000x128.Idx → EReal) (u : S50000x64.Idx → EReal)
    (W3B W3 : S448x1024.Idx → EReal) (b3B b3 : S1024.Idx → EReal) (W4B W4 : S1024x256.Idx → EReal)
    (b4B b4 : S256.Idx → EReal) (gaB ga : S256.Idx → EReal) (beB be : S256.Idx → EReal)
    (p : Fin 2000) (r : Fin 50000) (q : Fin 256)
    (hx : ∀ l, xB (ix2 p l) = x (ix2 r l)) (hg : ∀ l, gB (ix2 p l) = g (ix2 r l)) (hu : ∀ l, uB (ix2 p l) = u (ix2 r l))
    (h3 : W3B = W3) (h4 : b3B = b3) (h5 : W4B = W4) (h6 : b4B = b4) (h7 : gaB = ga) (h8 : beB = be) :
    Cert.Spec.nodeOutN 2000 xB gB uB W3B b3B W4B b4B gaB beB (ix2 p q)
      = Cert.Spec.nodeOutN 50000 x g u W3 b3 W4 b4 ga be (ix2 r q) := by
  subst h3 h4 h5 h6 h7 h8
  exact Cert.Spec.nodeOutN_row xB gB uB x g u _ _ _ _ _ _ p r q hx hg hu

/-- What grid point `t` writes back is tile `t` of the whole-array function. -/
theorem flushed_eq (c : Dev nD) (t : Fin cfg1.N) :
    (dat1 (F := Ideal) V c).flushed 9 t = ((cfg1.win 9).blk t).view.read (Elt Ideal) (nodeArr V c) := by
  show (cfg1.win 9).cut (grid1.coords t) ((dat1 V c).after 9 t) = _
  rw [after1_9]
  unfold out1_9
  rw [View.canon_unit_zero zero2]
  simp only [View.ld_unit_zero (S := S2000x256) zero2, View.ld_unit_zero (S := S2000x128) zero2, View.ld_unit_zero (S := S2000x64) zero2,
    View.ld_unit_zero (S := S448x1024) zero2, View.ld_unit_zero (S := S1024) zero1, View.ld_unit_zero (S := S1024x256) zero2,
    View.ld_unit_zero (S := S256) zero1]
  rw [NodeBody.node_payload]
  funext j
  revert j
  show ∀ j : S2000x256.Idx, Cert.Spec.nodeOutN 2000 (iblk1 V c 0 t) (iblk1 V c 1 t) (iblk1 V c 2 t) (iblk1 V c 3 t) (iblk1 V c 4 t)
      (iblk1 V c 5 t) (iblk1 V c 6 t) (iblk1 V c 7 t) (iblk1 V c 8 t) j = nodeArr V c (((cfg1.win 9).blk t).view.emb j)
  intro j
  obtain ⟨p, q, rfl⟩ : ∃ (p : Fin 2000) (q : Fin 256), j = ix2 p q := ⟨j 0, j 1, eq_ix2 j⟩
  rw [emb_row9]
  exact tile_eq _ _ _ _ _ _ _ _ _ _ _ _ _ _ _ _ _ _ p (rowOf t p) q (iblk_row0 V c t p) (iblk_row1 V c t p) (iblk_row2 V c t p)
    (iblk_whole3 V c t) (iblk_whole4 V c t) (iblk_whole5 V c t) (iblk_whole6 V c t) (iblk_whole7 V c t) (iblk_whole8 V c t)

/-! ## The tiles cover the array -/

/-- An index of the array is in point `t`'s tile iff each coordinate is in the tile's range on its axis. -/
theorem mem_blk (t : Fin cfg1.N) (i : S50000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v25).slice (win1_9.rect t)).set ↔ _
  rw [View.set_slice_whole, Rect.mem_set_unit]
  exact Iff.rfl

/-- Row `r` of the array is in the tile of grid point `r / 2000`, and every point writes its tile back. -/
theorem cover (i : S50000x256.Idx) :
    ∃ t : Fin cfg1.N, (cfg1.win 9).flush t = true ∧ i ∈ ((cfg1.win 9).blk t).view.set := by
  have hi0 : (i 0).val < 50000 := (i 0).isLt
  have hi1 : (i 1).val < 256 := (i 1).isLt
  obtain ⟨t, q0, q1⟩ := index_onto ⟨(i 0).val / 2000, by omega⟩
  have q0' : win1_9.index t (0 : Fin 2) = (i 0).val / 2000 := q0
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 256 ≤ (i 1).val ∧ (i 1).val < win1_9.index t (1 : Fin 2) * 256 + 256; omega

/-! ## The array after the region -/

/-- After the second region its output array holds the updates of all 50000 nodes, as one function of the region's
    nine input arrays as the region found them. -/
theorem node_final (c : Dev nD) :
    (dat1 (F := Ideal) V c).arrAt 9 cfg1.N
      = Cert.Spec.nodeOutN 50000 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8)) :=
  (dat1 V c).arrAt_eq_of_cover 9 (nodeArr V c) (fun t _ => flushed_eq V c t) cover

end Cert.KernelIdeal.NodeRegion

end
-- ==== Proof.HostTerms.lean ====
/-
  The host-side terms of the kernel's program, named: the two index vectors (an edge's source node and destination
  node, rows 0 and 1 of the index array), the wrap of a negative index by the axis length, the row gathers with
  their in-range mask and fill, and the mean of the messages arriving at each node (their scattered sum divided by
  the scattered count, the count floored at one).
-/
import proofs.«426684_j53730040873194_1_alg».proof.Proof.Gen.KernelIdeal

noncomputable section

namespace Cert.KernelIdeal.HostTerms

open Cert.KernelIdeal Cert.KernelIdeal.Gen Idealize.ShloMosaic

variable {F : FTy → Type} [FloatOps F]

/-- An edge's source node: row 0 of the index array. -/
def rowOf (ei : IVec S2x500000 32) : IVec S500000 32 :=
  shapeCast S500000 (extractStridedSlice S1x500000 ![0, 0] ei slices_S2x500000_S1x500000_0_0) shapeCasts_S1x500000_S500000

/-- An edge's destination node: row 1 of the index array. -/
def colOf (ei : IVec S2x500000 32) : IVec S500000 32 :=
  shapeCast S500000 (extractStridedSlice S1x500000 ![1, 0] ei slices_S2x500000_S1x500000_1_0) shapeCasts_S1x500000_S500000

/-- Source-node indices with a negative one wrapped by the 50000 nodes, as a column of start indices. -/
def rowIdx (row : IVec S500000 32) : IVec S500000x1 32 :=
  broadcastInDim S500000x1 ![0] bcast_S500000_S500000x1_0
    (select (cmpi .slt row (broadcastInDim S500000 ![] bcast_S_S500000 (constantI S_ 32 0#32)))
      (addi row (broadcastInDim S500000 ![] bcast_S_S500000 (constantI S_ 32 50000#32))) row)

/-- Graph indices with a negative one wrapped by the 64 graphs, as a column of start indices. -/
def batIdx (bat : IVec S50000 32) : IVec S50000x1 32 :=
  broadcastInDim S50000x1 ![0] bcast_S50000_S50000x1_0
    (select (cmpi .slt bat (broadcastInDim S50000 ![] bcast_S_S50000 (constantI S_ 32 0#32)))
      (addi bat (broadcastInDim S50000 ![] bcast_S_S50000 (constantI S_ 32 64#32))) bat)

/-- Per edge: is its wrapped source index inside [0, 49999]? -/
def rowInRange (idx : IVec S500000x1 32) : IVec S500000 1 :=
  Host.reduce IntOp.andi
    (andi (cmpi .sge idx (broadcastInDim S500000x1 ![] bcast_S_S500000x1 (constantI S_ 32 0#32)))
      (cmpi .sle idx (broadcastInDim S500000x1 ![0, 1] bcast_S1x1_S500000x1_0_1 (broadcastInDim S1x1 ![1] bcast_S1_S1x1_1 (constantI S1 32 49999#32)))))
    (constantI S_ 1 1#1) reducesTo_S500000x1_S500000_d1 h_S_

/-- Per node: is its wrapped graph index inside [0, 63]? -/
def batInRange (idx : IVec S50000x1 32) : IVec S50000 1 :=
  Host.reduce IntOp.andi
    (andi (cmpi .sge idx (broadcastInDim S50000x1 ![] bcast_S_S50000x1 (constantI S_ 32 0#32)))
      (cmpi .sle idx (broadcastInDim S50000x1 ![0, 1] bcast_S1x1_S50000x1_0_1 (broadcastInDim S1x1 ![1] bcast_S1_S1x1_1 (constantI S1 32 63#32)))))
    (constantI S_ 1 1#1) reducesTo_S50000x1_S50000_d1 h_S_

/-- The source-node features of every edge: the gathered rows where the index is in range, the fill word elsewhere. -/
def takeX (x : FVec F S50000x256 .f32) (row : IVec S500000 32) : FVec F S500000x256 .f32 :=
  select (broadcastInDim S500000x256 ![0] bcast_S500000_S500000x256_0 (rowInRange (rowIdx row)))
    (Host.gather gather_S50000x256_S500000x1_S500000x256_1_0_n_n_0_1_1256 x (rowIdx row))
    (broadcastInDim S500000x256 ![] bcast_S_S500000x256 (constant S_ .f32 0x7FC00000#32))

/-- The graph features of every node: the gathered rows where the index is in range, the fill word elsewhere. -/
def takeU (u : FVec F S64x64 .f32) (bat : IVec S50000 32) : FVec F S50000x64 .f32 :=
  select (broadcastInDim S50000x64 ![0] bcast_S50000_S50000x64_0 (batInRange (batIdx bat)))
    (Host.gather gather_S64x64_S50000x1_S50000x64_1_0_n_n_0_1_164 u (batIdx bat))
    (broadcastInDim S50000x64 ![] bcast_S_S50000x64 (constant S_ .f32 0x7FC00000#32))

/-- The mean message at each node: the messages summed into their destination rows, divided by the number of edges
    arriving there floored at one. -/
def meanMsg (e : FVec F S500000x128 .f32) (col : IVec S500000 32) : FVec F S50000x128 .f32 :=
  Host.divf
    (Host.scatterAdd scatter_S50000x128_S500000x1_S500000x128_1_0_0_1
      (broadcastInDim S50000x128 ![] bcast_S_S50000x128 (constant S_ .f32 0x00000000#32))
      (broadcastInDim S500000x1 ![0] bcast_S500000_S500000x1_0 col) e)
    (broadcastInDim S50000x128 ![0, 1] bcast_S50000x1_S50000x128_0_1
      (broadcastInDim S50000x1 ![0] bcast_S50000_S50000x1_0
        (maximumf
          (Host.scatterAdd scatter_S50000_S500000x1_S500000_n_0_0_1
            (broadcastInDim S50000 ![] bcast_S_S50000 (constant S_ .f32 0x00000000#32))
            (broadcastInDim S500000x1 ![0] bcast_S500000_S500000x1_0 col)
            (broadcastInDim S500000 ![] bcast_S_S500000 (constant S_ .f32 0x3F800000#32)))
          (broadcastInDim S50000 ![] bcast_S_S50000 (constant S_ .f32 0x3F800000#32)))))

end Cert.KernelIdeal.HostTerms

end
-- ==== Proof.HostSide.lean ====
/-
  The kernel program's host stretches, read: what each region finds in its input arrays, as terms of the launch
  memory. Before the first region the source-node features are gathered (with their in-range mask and fill) and the
  float inputs change format, which is the identity on extended reals; between the regions the messages are averaged
  per destination node and the graph features are gathered per node.
-/
import proofs.«426684_j53730040873194_1_alg».proof.Proof.Gen.KernelIdeal.Frame
import proofs.«426684_j53730040873194_1_alg».proof.Proof.HostTerms
import Idealize.ShloMosaic.Lib.StableHlo.Run
import Idealize.ShloMosaic.PureOps.Ideal

set_option maxRecDepth 16384

noncomputable section

namespace Cert.KernelIdeal.HostSide

open Cert.KernelIdeal Cert.KernelIdeal.Gen Cert.KernelIdeal.HostTerms Idealize.ShloMosaic Idealize.ShloMosaic.TcCoe Idealize.SL.Sem

variable (m : (ℓ : Loc nD τ sig) → Buf (Elt Ideal) ℓ) (ρ : Dev nD → PrngReg)

/-- A stretch of host operations leaves alone every buffer none of its operations writes: the goal
    `after ops V b = V b` for a named list `ops` and a literal buffer `b`, each operation's written buffer told
    apart from `b` by deciding. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The stretches before the first region, at a buffer they do not write -/

/-- No operation before the first region writes an argument: its buffer at the region's entry is the launch memory's. -/
theorem W3_arg (c : Dev nD) (b : Ref sig .tc)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W3 m ρ c (Proc.devRef .tc b) = m ((c.tc : Thread nD τ).loc b) :=
  h2.trans (h1.trans (h0.trans rfl))

/-! ## The computed arrays, read: each stretch's result is the named term of the buffers the stretch reads -/

/-- The first stretch cuts the index array into its two rows; row 0 holds every edge's source node. -/
theorem rowOf_read (c : Dev nD) : (W1 m ρ c (Proc.devRef .tc main_v1) : IVec S500000 32)
    = rowOf (m ((c.tc : Thread nD τ).loc main_arg13)) := by
  dsimp only [W1]; simp only [hostOps0]; after_results; rfl

/-- Row 1 holds every edge's destination node. -/
theorem colOf_read (c : Dev nD) : (W1 m ρ c (Proc.devRef .tc main_v3) : IVec S500000 32)
    = colOf (m ((c.tc : Thread nD τ).loc main_arg13)) := by
  dsimp only [W1]; simp only [hostOps0]; after_results; rfl

set_option maxHeartbeats 1600000 in
/-- The gather of source-node features, at any memory: the masked rows of the node features at the wrapped
    source indices. -/
theorem takeX_after (V : Valuation τ sig (Elt Ideal)) :
    (StableHlo.after hostOps0_1 V (Proc.devRef .tc main_v4) : FVec Ideal S500000x256 .f32)
      = takeX (F := Ideal) (V (Proc.devRef .tc main_arg0)) (V (Proc.devRef .tc main_v1)) := by
  simp only [hostOps0_1]
  after_results_simp
  simp only [StableHlo.TRef.ofBuf, StableHlo.TRef.toBuf, cast_eq]
  unfold takeX rowInRange rowIdx
  rfl

set_option maxHeartbeats 1600000 in
/-- The mean message, at any memory: the scattered sum of the messages over the scattered count of edges, the
    count floored at one. -/
theorem meanMsg_after (V : Valuation τ sig (Elt Ideal)) :
    (StableHlo.after hostOps1 V (Proc.devRef .tc main_v23) : FVec Ideal S50000x128 .f32)
      = meanMsg (F := Ideal) (V (Proc.devRef .tc main_v11)) (V (Proc.devRef .tc main_v3)) := by
  simp only [hostOps1]
  after_results_simp
  unfold meanMsg
  rfl

set_option maxHeartbeats 1600000 in
/-- The gather of graph features, at any memory: the masked rows of the graph features at the wrapped graph
    indices. -/
theorem takeU_after (V : Valuation τ sig (Elt Ideal)) :
    (StableHlo.after hostOps1_1 V (Proc.devRef .tc main_v24) : FVec Ideal S50000x64 .f32)
      = takeU (F := Ideal) (V (Proc.devRef .tc main_arg2)) (V (Proc.devRef .tc main_arg14)) := by
  simp only [hostOps1_1]
  after_results_simp
  simp only [StableHlo.TRef.ofBuf, StableHlo.TRef.toBuf, cast_eq]
  unfold takeU batInRange batIdx
  rfl

/-- A change of float format is the identity on extended reals. -/
theorem truncf_bf16_id {S : Shape} (x : FVec Ideal S .f32) :
    (truncf (F := Ideal) .bf16 x bitsLt_bf16_f32 : S.Idx → EReal) = x := rfl

/-! ## What the first region finds -/

theorem V3_0 (c : Dev nD) : V3 m ρ c (Pipeline.arrRef spec0 0) = takeX (F := Ideal) (m ((c.tc : Thread nD τ).loc main_arg0)) (rowOf (m ((c.tc : Thread nD τ).loc main_arg13))) := by
  have e : (W3 m ρ c (Proc.devRef .tc main_v5) : S500000x256.Idx → EReal)
      = truncf (F := Ideal) .bf16 (W2 m ρ c (Proc.devRef .tc main_v4)) bitsLt_bf16_f32 := by
    dsimp only [W3]; simp only [hostOps0_2]; after_results
  have h0 : W1 m ρ c (Proc.devRef .tc main_arg0) = W0 m ρ c (Proc.devRef .tc main_arg0) := by stretch_keeps hostOps0
  exact e.trans ((truncf_bf16_id _).trans ((takeX_after (W1 m ρ c)).trans
    (congrArg₂ (takeX (F := Ideal)) h0 (rowOf_read m ρ c))))
theorem V3_1 (c : Dev nD) : V3 m ρ c (Pipeline.arrRef spec0 1) = (m ((c.tc : Thread nD τ).loc main_arg1)) := by
  have e : (W3 m ρ c (Proc.devRef .tc main_v6) : S500000x128.Idx → EReal)
      = truncf (F := Ideal) .bf16 (W2 m ρ c (Proc.devRef .tc main_arg1)) bitsLt_bf16_f32 := by
    dsimp only [W3]; simp only [hostOps0_2]; after_results
  have h1 : W2 m ρ c (Proc.devRef .tc main_arg1) = W1 m ρ c (Proc.devRef .tc main_arg1) := by stretch_keeps hostOps0_1
  have h0 : W1 m ρ c (Proc.devRef .tc main_arg1) = W0 m ρ c (Proc.devRef .tc main_arg1) := by stretch_keeps hostOps0
  refine e.trans ?_
  rw [h1, h0]; rfl
theorem V3_2 (c : Dev nD) : V3 m ρ c (Pipeline.arrRef spec0 2) = (m ((c.tc : Thread nD τ).loc main_arg3)) := by
  have e : (W3 m ρ c (Proc.devRef .tc main_v7) : S384x512.Idx → EReal)
      = truncf (F := Ideal) .bf16 (W2 m ρ c (Proc.devRef .tc main_arg3)) bitsLt_bf16_f32 := by
    dsimp only [W3]; simp only [hostOps0_2]; after_results
  have h1 : W2 m ρ c (Proc.devRef .tc main_arg3) = W1 m ρ c (Proc.devRef .tc main_arg3) := by stretch_keeps hostOps0_1
  have h0 : W1 m ρ c (Proc.devRef .tc main_arg3) = W0 m ρ c (Proc.devRef .tc main_arg3) := by stretch_keeps hostOps0
  refine e.trans ?_
  rw [h1, h0]; rfl
theorem V3_3 (c : Dev nD) : V3 m ρ c (Pipeline.arrRef spec0 3) = (m ((c.tc : Thread nD τ).loc main_arg4)) :=
  W3_arg m ρ c main_arg4 (by stretch_keeps hostOps0_2) (by stretch_keeps hostOps0_1) (by stretch_keeps hostOps0)
theorem V3_4 (c : Dev nD) : V3 m ρ c (Pipeline.arrRef spec0 4) = (m ((c.tc : Thread nD τ).loc main_arg5)) := by
  have e : (W3 m ρ c (Proc.devRef .tc main_v8) : S512x128.Idx → EReal)
      = truncf (F := Ideal) .bf16 (W2 m ρ c (Proc.devRef .tc main_arg5)) bitsLt_bf16_f32 := by
    dsimp only [W3]; simp only [hostOps0_2]; after_results
  have h1 : W2 m ρ c (Proc.devRef .tc main_arg5) = W1 m ρ c (Proc.devRef .tc main_arg5) := by stretch_keeps hostOps0_1
  have h0 : W1 m ρ c (Proc.devRef .tc main_arg5) = W0 m ρ c (Proc.devRef .tc main_arg5) := by stretch_keeps hostOps0
  refine e.trans ?_
  rw [h1, h0]; rfl
theorem V3_5 (c : Dev nD) : V3 m ρ c (Pipeline.arrRef spec0 5) = (m ((c.tc : Thread nD τ).loc main_arg6)) :=
  W3_arg m ρ c main_arg6 (by stretch_keeps hostOps0_2) (by stretch_keeps hostOps0_1) (by stretch_keeps hostOps0)

/-! ## What the first region leaves, and what the second finds -/

/-- The messages' buffer after the first region is that region's output array. -/
theorem W4_out (c : Dev nD) : W4 m ρ c (Proc.devRef .tc main_v11) = (dat0 (V3 m ρ) c).arrAt 6 cfg0.N :=
  W4_arr m ρ c 6

theorem V6_0 (c : Dev nD) : V6 m ρ c (Pipeline.arrRef spec1 0) = (m ((c.tc : Thread nD τ).loc main_arg0)) :=
  ((W7_arr m ρ c 0).trans (((dat1 (V6 m ρ) c).arrAt_in 0 rfl _).trans (A_eq1 (V6 m ρ) c 0))).symm.trans (W7_main_arg0 m ρ c)
theorem V6_1 (c : Dev nD) : V6 m ρ c (Pipeline.arrRef spec1 1)
    = meanMsg (F := Ideal) (W4 m ρ c (Proc.devRef .tc main_v11)) (colOf (m ((c.tc : Thread nD τ).loc main_arg13))) := by
  have h5 : W6 m ρ c (Proc.devRef .tc main_v23) = W5 m ρ c (Proc.devRef .tc main_v23) := by stretch_keeps hostOps1_1
  have h2 : W3 m ρ c (Proc.devRef .tc main_v3) = W2 m ρ c (Proc.devRef .tc main_v3) := by stretch_keeps hostOps0_2
  have h1 : W2 m ρ c (Proc.devRef .tc main_v3) = W1 m ρ c (Proc.devRef .tc main_v3) := by stretch_keeps hostOps0_1
  have hc : (W4 m ρ c (Proc.devRef .tc main_v3) : IVec S500000 32) = colOf (m ((c.tc : Thread nD τ).loc main_arg13)) :=
    (W4_of_ne m ρ c main_v3 (by decide)).trans (h2.trans (h1.trans (colOf_read m ρ c)))
  exact h5.trans ((meanMsg_after (W4 m ρ c)).trans
    (congrArg (meanMsg (F := Ideal) (W4 m ρ c (Proc.devRef .tc main_v11))) hc))
theorem V6_2 (c : Dev nD) : V6 m ρ c (Pipeline.arrRef spec1 2) = takeU (F := Ideal) (m ((c.tc : Thread nD τ).loc main_arg2)) (m ((c.tc : Thread nD τ).loc main_arg14)) := by
  have k2 : W6 m ρ c (Proc.devRef .tc main_arg2) = W5 m ρ c (Proc.devRef .tc main_arg2) := by stretch_keeps hostOps1_1
  have k14 : W6 m ρ c (Proc.devRef .tc main_arg14) = W5 m ρ c (Proc.devRef .tc main_arg14) := by stretch_keeps hostOps1_1
  have ha2 : W5 m ρ c (Proc.devRef .tc main_arg2) = m ((c.tc : Thread nD τ).loc main_arg2) :=
    k2.symm.trans ((W7_of_ne m ρ c main_arg2 (by decide)).symm.trans (W7_main_arg2 m ρ c))
  have ha14 : W5 m ρ c (Proc.devRef .tc main_arg14) = m ((c.tc : Thread nD τ).loc main_arg14) :=
    k14.symm.trans ((W7_of_ne m ρ c main_arg14 (by decide)).symm.trans (W7_main_arg14 m ρ c))
  exact (takeU_after (W5 m ρ c)).trans (congrArg₂ (takeU (F := Ideal)) ha2 ha14)
theorem V6_3 (c : Dev nD) : V6 m ρ c (Pipeline.arrRef spec1 3) = (m ((c.tc : Thread nD τ).loc main_arg7)) := by
  have h5 : W6 m ρ c (Proc.devRef .tc main_v9) = W5 m ρ c (Proc.devRef .tc main_v9) := by stretch_keeps hostOps1_1
  have h4 : W5 m ρ c (Proc.devRef .tc main_v9) = W4 m ρ c (Proc.devRef .tc main_v9) := by stretch_keeps hostOps1
  have h3 : W4 m ρ c (Proc.devRef .tc main_v9) = W3 m ρ c (Proc.devRef .tc main_v9) := W4_of_ne m ρ c main_v9 (by decide)
  have e : (W3 m ρ c (Proc.devRef .tc main_v9) : S448x1024.Idx → EReal)
      = truncf (F := Ideal) .bf16 (W2 m ρ c (Proc.devRef .tc main_arg7)) bitsLt_bf16_f32 := by
    dsimp only [W3]; simp only [hostOps0_2]; after_results
  have h1 : W2 m ρ c (Proc.devRef .tc main_arg7) = W1 m ρ c (Proc.devRef .tc main_arg7) := by stretch_keeps hostOps0_1
  have h0 : W1 m ρ c (Proc.devRef .tc main_arg7) = W0 m ρ c (Proc.devRef .tc main_arg7) := by stretch_keeps hostOps0
  refine h5.trans (h4.trans (h3.trans (e.trans ?_)))
  rw [h1, h0]; rfl
theorem V6_4 (c : Dev nD) : V6 m ρ c (Pipeline.arrRef spec1 4) = (m ((c.tc : Thread nD τ).loc main_arg8)) :=
  ((W7_arr m ρ c 4).trans (((dat1 (V6 m ρ) c).arrAt_in 4 rfl _).trans (A_eq1 (V6 m ρ) c 4))).symm.trans (W7_main_arg8 m ρ c)
theorem V6_5 (c : Dev nD) : V6 m ρ c (Pipeline.arrRef spec1 5) = (m ((c.tc : Thread nD τ).loc main_arg9)) := by
  have h5 : W6 m ρ c (Proc.devRef .tc main_v10) = W5 m ρ c (Proc.devRef .tc main_v10) := by stretch_keeps hostOps1_1
  have h4 : W5 m ρ c (Proc.devRef .tc main_v10) = W4 m ρ c (Proc.devRef .tc main_v10) := by stretch_keeps hostOps1
  have h3 : W4 m ρ c (Proc.devRef .tc main_v10) = W3 m ρ c (Proc.devRef .tc main_v10) := W4_of_ne m ρ c main_v10 (by decide)
  have e : (W3 m ρ c (Proc.devRef .tc main_v10) : S1024x256.Idx → EReal)
      = truncf (F := Ideal) .bf16 (W2 m ρ c (Proc.devRef .tc main_arg9)) bitsLt_bf16_f32 := by
    dsimp only [W3]; simp only [hostOps0_2]; after_results
  have h1 : W2 m ρ c (Proc.devRef .tc main_arg9) = W1 m ρ c (Proc.devRef .tc main_arg9) := by stretch_keeps hostOps0_1
  have h0 : W1 m ρ c (Proc.devRef .tc main_arg9) = W0 m ρ c (Proc.devRef .tc main_arg9) := by stretch_keeps hostOps0
  refine h5.trans (h4.trans (h3.trans (e.trans ?_)))
  rw [h1, h0]; rfl
theorem V6_6 (c : Dev nD) : V6 m ρ c (Pipeline.arrRef spec1 6) = (m ((c.tc : Thread nD τ).loc main_arg10)) :=
  ((W7_arr m ρ c 6).trans (((dat1 (V6 m ρ) c).arrAt_in 6 rfl _).trans (A_eq1 (V6 m ρ) c 6))).symm.trans (W7_main_arg10 m ρ c)
theorem V6_7 (c : Dev nD) : V6 m ρ c (Pipeline.arrRef spec1 7) = (m ((c.tc : Thread nD τ).loc main_arg11)) :=
  ((W7_arr m ρ c 7).trans (((dat1 (V6 m ρ) c).arrAt_in 7 rfl _).trans (A_eq1 (V6 m ρ) c 7))).symm.trans (W7_main_arg11 m ρ c)
theorem V6_8 (c : Dev nD) : V6 m ρ c (Pipeline.arrRef spec1 8) = (m ((c.tc : Thread nD τ).loc main_arg12)) :=
  ((W7_arr m ρ c 8).trans (((dat1 (V6 m ρ) c).arrAt_in 8 rfl _).trans (A_eq1 (V6 m ρ) c 8))).symm.trans (W7_main_arg12 m ρ c)

/-- The result buffer after the second region is that region's output array. -/
theorem W7_out (c : Dev nD) : W7 m ρ c (Proc.devRef .tc main_v25) = (dat1 (V6 m ρ) c).arrAt 9 cfg1.N :=
  W7_arr m ρ c 9

end Cert.KernelIdeal.HostSide

end
-- ==== Proof.IndexRange.lean ====
/-
  Under the precondition every source-node index lies in [0, 50000) and every graph index in [0, 64): the wrap of a
  negative index never applies, the in-range mask of each gather is all ones, and the gather with mask and fill is
  the plain gather.
-/
import proofs.«426684_j53730040873194_1_alg».proof.Proof.HostTerms
import proofs.«426684_j53730040873194_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.IndexRange

open Cert.KernelIdeal Cert.KernelIdeal.Gen Cert.KernelIdeal.HostTerms Idealize.ShloMosaic Idealize.ShloMosaic.ValueIdx

/-! ## Words: what the two signed comparisons of the precondition say of a 32-bit word -/

/-- A word that compares signed-at-least zero has a non-negative value. -/
theorem toInt_nonneg_of_sge {r : BitVec 32} (h : IntOp.cmpi .sge r 0#32 = 1#1) : 0 ≤ r.toInt := by
  simp only [IntOp.cmpi, BitVec.sle, StableHlo.Predicate.ofBool_eq_one_iff, decide_eq_true_eq] at h
  have h0 : (0#32 : BitVec 32).toInt = 0 := by decide
  omega

/-- A word that compares signed-below a bound has a value below the bound's. -/
theorem toInt_lt_of_slt {r c : BitVec 32} (h : IntOp.cmpi .slt r c = 1#1) : r.toInt < c.toInt := by
  simpa only [IntOp.cmpi, BitVec.slt, StableHlo.Predicate.ofBool_eq_one_iff, decide_eq_true_eq] using h

/-- A non-negative word is not signed-below zero. -/
theorem slt_zero_ne_one {r : BitVec 32} (h : 0 ≤ r.toInt) : IntOp.cmpi .slt r 0#32 ≠ 1#1 := by
  intro e
  have := toInt_lt_of_slt e
  have h0 : (0#32 : BitVec 32).toInt = 0 := by decide
  omega

/-- A word of non-negative value compares signed-at-least zero. -/
theorem sge_zero_of_nonneg {r : BitVec 32} (h : 0 ≤ r.toInt) : IntOp.cmpi .sge r 0#32 = 1#1 := by
  simp only [IntOp.cmpi, BitVec.sle, StableHlo.Predicate.ofBool_eq_one_iff, decide_eq_true_eq]
  have h0 : (0#32 : BitVec 32).toInt = 0 := by decide
  omega

/-- A word whose value is at most a bound's compares signed-at-most the bound. -/
theorem sle_of_toInt_le {r c : BitVec 32} (h : r.toInt ≤ c.toInt) : IntOp.cmpi .sle r c = 1#1 := by
  simp only [IntOp.cmpi, BitVec.sle, StableHlo.Predicate.ofBool_eq_one_iff, decide_eq_true_eq]
  exact h

/-! ## Arrays: a select under a constant condition, a conjunction over all-ones -/

/-- A lane-by-lane select whose condition is one everywhere is its first branch. -/
theorem select_of_ones {s : Shape} {α : Type} (c : IVec s 1) (a b : s.Idx → α) (hc : ∀ i, c i = 1#1) : select c a b = a := by
  funext i
  exact if_pos (hc i)

/-- A lane-by-lane select whose condition is one nowhere is its second branch. -/
theorem select_of_not_ones {s : Shape} {α : Type} (c : IVec s 1) (a b : s.Idx → α) (hc : ∀ i, c i ≠ 1#1) : select c a b = b := by
  funext i
  exact if_neg (hc i)

/-- A left fold by conjunction from one over ones is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by conjunction, from an initial value of ones, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The source-node gather -/

/-- Where every index is non-negative the wrap by the axis length picks the index itself. -/
theorem wrap_row (row : IVec S500000 32) (h0 : ∀ t, 0 ≤ (row t).toInt) :
    select (cmpi .slt row (broadcastInDim S500000 ![] bcast_S_S500000 (constantI S_ 32 0#32)))
      (addi row (broadcastInDim S500000 ![] bcast_S_S500000 (constantI S_ 32 50000#32))) row = row :=
  select_of_not_ones _ _ _ fun t => slt_zero_ne_one (h0 t)

/-- With every index non-negative the column of start indices is the index vector as a column. -/
theorem rowIdx_eq (row : IVec S500000 32) (h0 : ∀ t, 0 ≤ (row t).toInt) :
    rowIdx row = broadcastInDim S500000x1 ![0] bcast_S500000_S500000x1_0 row := by
  unfold rowIdx
  rw [wrap_row row h0]

/-- A column of start indices all in [0, 50000) has an in-range mask of ones. -/
theorem rowInRange_ones (idx : IVec S500000x1 32) (h0 : ∀ i, 0 ≤ (idx i).toInt) (h1 : ∀ i, (idx i).toInt < 50000)
    (j : S500000.Idx) : rowInRange idx j = 1#1 := by
  unfold rowInRange
  refine reduce_andi_ones _ _ _ _ (fun i => ?_) (fun _ => rfl) j
  refine IntOp.andi_eq_one.2 ⟨sge_zero_of_nonneg (h0 i), ?_⟩
  show IntOp.cmpi .sle (idx i) 49999#32 = 1#1
  refine sle_of_toInt_le ?_
  have hz : (49999#32 : BitVec 32).toInt = 49999 := by decide
  have := h1 i
  omega

/-- With every source-node index in [0, 50000) the masked gather of source features is the gather. -/
theorem takeX_of_range (x : FVec Ideal S50000x256 .f32) (row : IVec S500000 32) (h0 : ∀ t, 0 ≤ (row t).toInt)
    (h1 : ∀ t, (row t).toInt < 50000) :
    takeX (F := Ideal) x row = Host.gather gather_S50000x256_S500000x1_S500000x256_1_0_n_n_0_1_1256 x (rowIdx row) := by
  unfold takeX
  refine select_of_ones _ _ _ fun i => ?_
  show rowInRange (rowIdx row) _ = 1#1
  rw [rowIdx_eq row h0]
  exact rowInRange_ones _ (fun _ => h0 _) (fun _ => h1 _) _

/-! ## The graph gather -/

/-- Where every index is non-negative the wrap by the axis length picks the index itself. -/
theorem wrap_bat (bat : IVec S50000 32) (h0 : ∀ t, 0 ≤ (bat t).toInt) :
    select (cmpi .slt bat (broadcastInDim S50000 ![] bcast_S_S50000 (constantI S_ 32 0#32)))
      (addi bat (broadcastInDim S50000 ![] bcast_S_S50000 (constantI S_ 32 64#32))) bat = bat :=
  select_of_not_ones _ _ _ fun t => slt_zero_ne_one (h0 t)

/-- With every index non-negative the column of start indices is the index vector as a column. -/
theorem batIdx_eq (bat : IVec S50000 32) (h0 : ∀ t, 0 ≤ (bat t).toInt) :
    batIdx bat = broadcastInDim S50000x1 ![0] bcast_S50000_S50000x1_0 bat := by
  unfold batIdx
  rw [wrap_bat bat h0]

/-- A column of start indices all in [0, 64) has an in-range mask of ones. -/
theorem batInRange_ones (idx : IVec S50000x1 32) (h0 : ∀ i, 0 ≤ (idx i).toInt) (h1 : ∀ i, (idx i).toInt < 64)
    (j : S50000.Idx) : batInRange idx j = 1#1 := by
  unfold batInRange
  refine reduce_andi_ones _ _ _ _ (fun i => ?_) (fun _ => rfl) j
  refine IntOp.andi_eq_one.2 ⟨sge_zero_of_nonneg (h0 i), ?_⟩
  show IntOp.cmpi .sle (idx i) 63#32 = 1#1
  refine sle_of_toInt_le ?_
  have hz : (63#32 : BitVec 32).toInt = 63 := by decide
  have := h1 i
  omega

/-- With every graph index in [0, 64) the masked gather of graph features is the gather. -/
theorem takeU_of_range (u : FVec Ideal S64x64 .f32) (bat : IVec S50000 32) (h0 : ∀ t, 0 ≤ (bat t).toInt)
    (h1 : ∀ t, (bat t).toInt < 64) :
    takeU (F := Ideal) u bat = Host.gather gather_S64x64_S50000x1_S50000x64_1_0_n_n_0_1_164 u (batIdx bat) := by
  unfold takeU
  refine select_of_ones _ _ _ fun i => ?_
  show batInRange (batIdx bat) _ = 1#1
  rw [batIdx_eq bat h0]
  exact batInRange_ones _ (fun _ => h0 _) (fun _ => h1 _) _

/-! ## The precondition, read back -/

/-- A rank-0 shape has one index. -/
instance subsingleton_scalar_idx : Subsingleton Cert.Pre_finite_inputs.S_.Idx := ⟨fun _ _ => funext fun d => d.elim0⟩

/-- The last two conjuncts of the precondition: every source-node index compares at least 0 and below 50000, every graph
    index at least 0 and below 64. -/
theorem pre_ranges (a0 : FVec Ideal S50000x256 .f32) (a1 : FVec Ideal S500000x128 .f32) (a2 : FVec Ideal S64x64 .f32) (a3 : FVec Ideal S384x512 .f32) (a4 : FVec Ideal S512 .f32) (a5 : FVec Ideal S512x128 .f32) (a6 : FVec Ideal S128 .f32) (a7 : FVec Ideal S448x1024 .f32) (a8 : FVec Ideal S1024 .f32) (a9 : FVec Ideal S1024x256 .f32) (a10 : FVec Ideal S256 .f32) (a11 : FVec Ideal S256 .f32) (a12 : FVec Ideal S256 .f32) (a13 : IVec S2x500000 32) (a14 : IVec S50000 32)
    (h : Cert.Pre_finite_inputs.fn (F := Ideal) a0 a1 a2 a3 a4 a5 a6 a7 a8 a9 a10 a11 a12 a13 a14 = (fun _ => 1#1)) :
    (∀ t, IntOp.cmpi .sge (rowOf a13 t) 0#32 = 1#1 ∧ IntOp.cmpi .slt (rowOf a13 t) 50000#32 = 1#1)
      ∧ (∀ t, IntOp.cmpi .sge (a14 t) 0#32 = 1#1 ∧ IntOp.cmpi .slt (a14 t) 64#32 = 1#1) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e12, eB⟩ := IntOp.andi_eq_one.1 e
  obtain ⟨_, eA⟩ := IntOp.andi_eq_one.1 e12
  exact ⟨fun t => IntOp.andi_eq_one.1 (Host.reduce_andi_all _ _ _ _ _ eA t),
    fun t => IntOp.andi_eq_one.1 (Host.reduce_andi_all _ _ _ _ _ eB t)⟩

/-- With every source-node index in range, the masked gather of source features is the gather. -/
theorem takeX_eq_gather (a0 : FVec Ideal S50000x256 .f32) (a1 : FVec Ideal S500000x128 .f32) (a2 : FVec Ideal S64x64 .f32) (a3 : FVec Ideal S384x512 .f32) (a4 : FVec Ideal S512 .f32) (a5 : FVec Ideal S512x128 .f32) (a6 : FVec Ideal S128 .f32) (a7 : FVec Ideal S448x1024 .f32) (a8 : FVec Ideal S1024 .f32) (a9 : FVec Ideal S1024x256 .f32) (a10 : FVec Ideal S256 .f32) (a11 : FVec Ideal S256 .f32) (a12 : FVec Ideal S256 .f32) (a13 : IVec S2x500000 32) (a14 : IVec S50000 32)
    (h : Cert.Pre_finite_inputs.fn (F := Ideal) a0 a1 a2 a3 a4 a5 a6 a7 a8 a9 a10 a11 a12 a13 a14 = (fun _ => 1#1)) :
    takeX (F := Ideal) a0 (rowOf a13)
      = Host.gather gather_S50000x256_S500000x1_S500000x256_1_0_n_n_0_1_1256 a0 (rowIdx (rowOf a13)) := by
  obtain ⟨hr, _⟩ := pre_ranges a0 a1 a2 a3 a4 a5 a6 a7 a8 a9 a10 a11 a12 a13 a14 h
  have c50000 : (50000#32 : BitVec 32).toInt = 50000 := by decide
  exact takeX_of_range a0 (rowOf a13) (fun t => toInt_nonneg_of_sge (hr t).1)
    (fun t => by have := toInt_lt_of_slt (hr t).2; omega)

/-- With every graph index in range, the masked gather of graph features is the gather. -/
theorem takeU_eq_gather (a0 : FVec Ideal S50000x256 .f32) (a1 : FVec Ideal S500000x128 .f32) (a2 : FVec Ideal S64x64 .f32) (a3 : FVec Ideal S384x512 .f32) (a4 : FVec Ideal S512 .f32) (a5 : FVec Ideal S512x128 .f32) (a6 : FVec Ideal S128 .f32) (a7 : FVec Ideal S448x1024 .f32) (a8 : FVec Ideal S1024 .f32) (a9 : FVec Ideal S1024x256 .f32) (a10 : FVec Ideal S256 .f32) (a11 : FVec Ideal S256 .f32) (a12 : FVec Ideal S256 .f32) (a13 : IVec S2x500000 32) (a14 : IVec S50000 32)
    (h : Cert.Pre_finite_inputs.fn (F := Ideal) a0 a1 a2 a3 a4 a5 a6 a7 a8 a9 a10 a11 a12 a13 a14 = (fun _ => 1#1)) :
    takeU (F := Ideal) a2 a14
      = Host.gather gather_S64x64_S50000x1_S50000x64_1_0_n_n_0_1_164 a2 (batIdx a14) := by
  obtain ⟨_, hb⟩ := pre_ranges a0 a1 a2 a3 a4 a5 a6 a7 a8 a9 a10 a11 a12 a13 a14 h
  have c64 : (64#32 : BitVec 32).toInt = 64 := by decide
  exact takeU_of_range a2 a14 (fun t => toInt_nonneg_of_sge (hb t).1)
    (fun t => by have := toInt_lt_of_slt (hb t).2; omega)

end Cert.KernelIdeal.IndexRange

end
-- ==== Proof.KernelValue.lean ====
/-
  The kernel program's result as one function of its arguments: the node updates of the mean messages of the edge
  perceptron's outputs, with both gathers plain because under the precondition every index is in range.
-/
import proofs.«426684_j53730040873194_1_alg».proof.Defs
import proofs.«426684_j53730040873194_1_alg».proof.Proof.KernelRun
import proofs.«426684_j53730040873194_1_alg».proof.Proof.Regions
import proofs.«426684_j53730040873194_1_alg».proof.Proof.NodeRegion
import proofs.«426684_j53730040873194_1_alg».proof.Proof.HostSide
import proofs.«426684_j53730040873194_1_alg».proof.Proof.IndexRange

set_option maxRecDepth 16384

noncomputable section

namespace Cert.KernelIdeal.KValue

open Cert.KernelIdeal Cert.KernelIdeal.Gen Cert.KernelIdeal.HostTerms Idealize.ShloMosaic Idealize.ShloMosaic.TcCoe Idealize.SL.Sem

/-- The network as one function of the fifteen argument arrays. -/
def G (a0 : FVec Ideal S50000x256 .f32) (a1 : FVec Ideal S500000x128 .f32) (a2 : FVec Ideal S64x64 .f32)
    (a3 : FVec Ideal S384x512 .f32) (a4 : FVec Ideal S512 .f32) (a5 : FVec Ideal S512x128 .f32) (a6 : FVec Ideal S128 .f32)
    (a7 : FVec Ideal S448x1024 .f32) (a8 : FVec Ideal S1024 .f32) (a9 : FVec Ideal S1024x256 .f32) (a10 : FVec Ideal S256 .f32)
    (a11 : FVec Ideal S256 .f32) (a12 : FVec Ideal S256 .f32) (a13 : IVec S2x500000 32) (a14 : IVec S50000 32) :
    FVec Ideal S50000x256 .f32 :=
  Cert.Spec.nodeOutN 50000 a0
    (meanMsg (F := Ideal)
      (Cert.Spec.edgeOutN 500000
        (Host.gather gather_S50000x256_S500000x1_S500000x256_1_0_n_n_0_1_1256 a0 (rowIdx (rowOf a13))) a1 a3 a4 a5 a6)
      (colOf a13))
    (Host.gather gather_S64x64_S50000x1_S50000x64_1_0_n_n_0_1_164 a2 (batIdx a14))
    a7 a8 a9 a10 a11 a12

/-- Equal inputs, equal messages. -/
theorem edgeOutN_congr {n : ℕ} {xr xr' : (⟨2, ![n, 256]⟩ : Shape).Idx → EReal} {ea ea' : (⟨2, ![n, 128]⟩ : Shape).Idx → EReal}
    {W1 W1' : (⟨2, ![384, 512]⟩ : Shape).Idx → EReal} {b1 b1' : (⟨1, ![512]⟩ : Shape).Idx → EReal}
    {W2 W2' : (⟨2, ![512, 128]⟩ : Shape).Idx → EReal} {b2 b2' : (⟨1, ![128]⟩ : Shape).Idx → EReal}
    (h0 : xr = xr') (h1 : ea = ea') (h2 : W1 = W1') (h3 : b1 = b1') (h4 : W2 = W2') (h5 : b2 = b2') :
    Cert.Spec.edgeOutN n xr ea W1 b1 W2 b2 = Cert.Spec.edgeOutN n xr' ea' W1' b1' W2' b2' := by
  subst h0 h1 h2 h3 h4 h5; rfl

/-- Equal inputs, equal node updates. -/
theorem nodeOutN_congr {n : ℕ} {x x' : (⟨2, ![n, 256]⟩ : Shape).Idx → EReal} {agg agg' : (⟨2, ![n, 128]⟩ : Shape).Idx → EReal}
    {ub ub' : (⟨2, ![n, 64]⟩ : Shape).Idx → EReal}
    {W3 W3' : (⟨2, ![448, 1024]⟩ : Shape).Idx → EReal} {b3 b3' : (⟨1, ![1024]⟩ : Shape).Idx → EReal}
    {W4 W4' : (⟨2, ![1024, 256]⟩ : Shape).Idx → EReal} {b4 b4' : (⟨1, ![256]⟩ : Shape).Idx → EReal}
    {g g' : (⟨1, ![256]⟩ : Shape).Idx → EReal} {b b' : (⟨1, ![256]⟩ : Shape).Idx → EReal}
    (h0 : x = x') (h1 : agg = agg') (h2 : ub = ub') (h3 : W3 = W3') (h4 : b3 = b3') (h5 : W4 = W4') (h6 : b4 = b4')
    (h7 : g = g') (h8 : b = b') :
    Cert.Spec.nodeOutN n x agg ub W3 b3 W4 b4 g b = Cert.Spec.nodeOutN n x' agg' ub' W3' b3' W4' b4' g' b' := by
  subst h0 h1 h2 h3 h4 h5 h6 h7 h8; rfl

variable (m : (ℓ : Loc nD τ sig) → Buf (Elt Ideal) ℓ) (ρ : Dev nD → PrngReg)

/-- The messages' array after the first region, read back to the arguments. -/
theorem messages_eq (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = (fun _ => 1#1)) :
    W4 m ρ c (Proc.devRef .tc main_v11)
      = Cert.Spec.edgeOutN 500000
          (Host.gather gather_S50000x256_S500000x1_S500000x256_1_0_n_n_0_1_1256 (m ((c.tc : Thread nD τ).loc main_arg0)) (rowIdx (rowOf (m ((c.tc : Thread nD τ).loc main_arg13)))))
          (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (HostSide.W4_out m ρ c).trans ((Regions.edge_final (V3 m ρ) c).trans
    (edgeOutN_congr
      ((HostSide.V3_0 m ρ c).trans (IndexRange.takeX_eq_gather _ _ _ _ _ _ _ _ _ _ _ _ _ _ _ hpre))
      (HostSide.V3_1 m ρ c) (HostSide.V3_2 m ρ c) (HostSide.V3_3 m ρ c) (HostSide.V3_4 m ρ c) (HostSide.V3_5 m ρ c)))

/-- The result buffer after the run, read back through both regions and the host stretches to the arguments. -/
theorem result_eq (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = (fun _ => 1#1)) :
    W7 m ρ c (Proc.devRef .tc main_v25) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (HostSide.W7_out m ρ c).trans ((NodeRegion.node_final (V6 m ρ) c).trans
    (nodeOutN_congr (HostSide.V6_0 m ρ c)
      ((HostSide.V6_1 m ρ c).trans
        (congrArg (fun e => meanMsg (F := Ideal) e (colOf (m ((c.tc : Thread nD τ).loc main_arg13)))) (messages_eq m ρ c hpre)))
      ((HostSide.V6_2 m ρ c).trans (IndexRange.takeU_eq_gather _ _ _ _ _ _ _ _ _ _ _ _ _ _ _ hpre))
      (HostSide.V6_3 m ρ c) (HostSide.V6_4 m ρ c) (HostSide.V6_5 m ρ c) (HostSide.V6_6 m ρ c) (HostSide.V6_7 m ρ c)
      (HostSide.V6_8 m ρ c)))

/-- Every weakly fair execution of the kernel program terminates with its result at `G` of the arguments and the
    arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v25) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c (hpre c)), (h c).2⟩) (run_result m ρ)

end Cert.KernelIdeal.KValue

end
-- ==== Proof.RefNode.lean ====
/-
  The reference's node stage, read at an index: its result is, row by row, the normalised perceptron-plus-residual of
  (node features ‖ mean message ‖ graph features), as a function of the mean-message stage and the gathered graph
  features it joins.
-/
import proofs.«426684_j53730040873194_1_alg».proof.Proof.Gen.ReferenceIdeal.Read
import proofs.«426684_j53730040873194_1_alg».proof.Proof.Spec
import proofs.«426684_j53730040873194_1_alg».proof.Proof.LibColumn
import Idealize.ShloMosaic.Lib.Pipeline.Value
import Idealize.ShloMosaic.Lib.ValueIdx
import Idealize.ShloMosaic.PureOps.Ideal.Laws

noncomputable section

namespace Cert.ReferenceIdeal.RefNode

open Cert.ReferenceIdeal Cert.ReferenceIdeal.Gen Cert.ReferenceIdeal.Read Idealize.ShloMosaic Idealize.ShloMosaic.ValueIdx

/-- Three arrays of 50000 rows joined along the feature axis (256 + 128 + 64 = 448 features), read at row `r` and
    feature `l`: the piece whose span holds `l`, at `l` less the widths before it. -/
theorem cat_apply (x : S50000x256.Idx → EReal) (a : S50000x128.Idx → EReal) (u : S50000x64.Idx → EReal)
    (h : Shape.Concatenates [S50000x256, S50000x128, S50000x64] S50000x448 1) (r : Fin 50000) (l : Fin 448) :
    concatenate S50000x448 1 [⟨S50000x256, x⟩, ⟨S50000x128, a⟩, ⟨S50000x64, u⟩] h (ix2 r l)
      = Cert.Spec.cat3 (A := 256) (B := 128) (C := 64) (N := 448) rfl (fun l => x (ix2 r l)) (fun l => a (ix2 r l))
          (fun l => u (ix2 r l)) l := by
  unfold Cert.Spec.cat3
  by_cases h1 : l.val < 256
  · rw [dif_pos h1]
    refine concatenate_apply_piece 1 [⟨S50000x256, x⟩, ⟨S50000x128, a⟩, ⟨S50000x64, u⟩] h (ix2 r l) 0
      (by show 0 < 3; omega) S50000x256 x rfl rfl 0 rfl (ix2 r ⟨l.val, h1⟩) (fun b hb => ?_) ?_
    · match b with
      | ⟨0, _⟩ => rfl
      | ⟨1, _⟩ => exact absurd rfl hb
    · show 0 + l.val = l.val
      omega
  · rw [dif_neg h1]
    by_cases h2 : l.val < 256 + 128
    · rw [dif_pos h2]
      refine concatenate_apply_piece 1 [⟨S50000x256, x⟩, ⟨S50000x128, a⟩, ⟨S50000x64, u⟩] h (ix2 r l) 1
        (by show 1 < 3; omega) S50000x128 a rfl rfl 256 rfl (ix2 r ⟨l.val - 256, by omega⟩) (fun b hb => ?_) ?_
      · match b with
        | ⟨0, _⟩ => rfl
        | ⟨1, _⟩ => exact absurd rfl hb
      · show 256 + (l.val - 256) = l.val
        omega
    · rw [dif_neg h2]
      refine concatenate_apply_piece 1 [⟨S50000x256, x⟩, ⟨S50000x128, a⟩, ⟨S50000x64, u⟩] h (ix2 r l) 2
        (by show 2 < 3; omega) S50000x64 u rfl rfl (256 + 128) rfl
        (ix2 r ⟨l.val - (256 + 128), by have := l.isLt; omega⟩) (fun b hb => ?_) ?_
      · match b with
        | ⟨0, _⟩ => rfl
        | ⟨1, _⟩ => exact absurd rfl hb
      · show 256 + 128 + (l.val - (256 + 128)) = l.val
        omega

/-- The hidden layer at row `r`, unit `k`: the floor at the zero word of the joined row against column `k` of the
    first weight, plus the first bias. -/
theorem hid_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x13 : (⟨S2x500000, .i32⟩ : BufTy).Contents (Elt Ideal)) (x14 : (⟨S50000, .i32⟩ : BufTy).Contents (Elt Ideal)) (r : Fin 50000) (k : Fin 1024) :
    val_main_v47 (F := Ideal) x0 x1 x2 x3 x4 x5 x6 x7 x8 x13 x14 (ix2 r k)
      = max ((∑ l : Fin 448, Cert.Spec.cat3 (A := 256) (B := 128) (C := 64) (N := 448) rfl (fun l => x0 (ix2 r l)) (fun l => val_main_v33 (F := Ideal) x0 x1 x3 x4 x5 x6 x13 (ix2 r l)) (fun l => val_main_v40 (F := Ideal) x2 x14 (ix2 r l)) l * x7 (ix2 l k)) + x8 (ix1 k)) Cert.Spec.w0 := by
  rw [val_main_v47_apply, val_main_v45_apply, val_main_v42_apply, val_main_v44_apply, val_main_v43_apply,
    val_main_v46_apply, val_main_cst_7_apply, Ideal.maximumf_def, Ideal.addf_def, Ideal.ofBits_def]
  have eb : idx_main_v43 (idx_main_v44 (ix2 r k)) = ix1 k := funext fun a => by match a with | ⟨0, _⟩ => rfl
  rw [eb]
  refine congrArg (fun s => max (s + x8 (ix1 k)) Cert.Spec.w0) (Finset.sum_congr rfl fun l _ => ?_)
  have el : lidx_main_v42 (ix2 r k) l = ix2 r l := funext fun a => by match a with | ⟨0, _⟩ => rfl | ⟨1, _⟩ => rfl
  have er : ridx_main_v42 (ix2 r k) l = ix2 l k := funext fun a => by match a with | ⟨0, _⟩ => rfl | ⟨1, _⟩ => rfl
  rw [el, er]
  unfold val_main_v41
  rw [cat_apply]

/-- The perceptron-plus-residual at row `r`, feature `q`, is the specification's row function of the three joined rows. -/
theorem y_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 : (⟨S256, .f32⟩ : BufTy).Contents (Elt Ideal)) (x13 : (⟨S2x500000, .i32⟩ : BufTy).Contents (Elt Ideal)) (x14 : (⟨S50000, .i32⟩ : BufTy).Contents (Elt Ideal)) (r : Fin 50000) (q : Fin 256) :
    val_main_v52 (F := Ideal) x0 x1 x2 x3 x4 x5 x6 x7 x8 x9 x10 x13 x14 (ix2 r q)
      = Cert.Spec.nodePreRow (fun l => x0 (ix2 r l)) (fun l => val_main_v33 (F := Ideal) x0 x1 x3 x4 x5 x6 x13 (ix2 r l)) (fun l => val_main_v40 (F := Ideal) x2 x14 (ix2 r l))
          x7 x8 x9 x10 q := by
  rw [val_main_v52_apply, val_main_v51_apply, val_main_v48_apply, val_main_v50_apply, val_main_v49_apply,
    Ideal.addf_def, Ideal.addf_def]
  have eb : idx_main_v49 (idx_main_v50 (ix2 r q)) = ix1 q := funext fun a => by match a with | ⟨0, _⟩ => rfl
  rw [eb]
  unfold Cert.Spec.nodePreRow Cert.Spec.mlpRow
  refine congrArg (fun s => s + x10 (ix1 q) + x0 (ix2 r q)) (Finset.sum_congr rfl fun k _ => ?_)
  have el : lidx_main_v48 (ix2 r q) k = ix2 r k := funext fun a => by match a with | ⟨0, _⟩ => rfl | ⟨1, _⟩ => rfl
  have er : ridx_main_v48 (ix2 r q) k = ix2 k q := funext fun a => by match a with | ⟨0, _⟩ => rfl | ⟨1, _⟩ => rfl
  rw [el, er, hid_apply]

/-- The mean column at row `r`: the row's sum over its 256 features, divided by the word of 256. -/
theorem mean_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 : (⟨S256, .f32⟩ : BufTy).Contents (Elt Ideal)) (x13 : (⟨S2x500000, .i32⟩ : BufTy).Contents (Elt Ideal)) (x14 : (⟨S50000, .i32⟩ : BufTy).Contents (Elt Ideal)) (r : Fin 50000) :
    val_main_v56 (F := Ideal) x0 x1 x2 x3 x4 x5 x6 x7 x8 x9 x10 x13 x14 (ix2 r (0 : Fin 1))
      = Ideal.div (∑ k' : Fin 256, val_main_v52 (F := Ideal) x0 x1 x2 x3 x4 x5 x6 x7 x8 x9 x10 x13 x14 (ix2 r k')) Cert.Spec.w256 := by
  rw [val_main_v56_apply, val_main_v54_apply, val_main_v53_apply, val_main_v55_apply, val_main_cst_9_apply,
    val_main_cst_8_apply, Ideal.hostDivf_def, Ideal.ofBits_def, Ideal.ofBits_def, Ideal.ofBits_zero_f32, zero_add]
  refine congrArg (fun s => Ideal.div s Cert.Spec.w256) (Finset.sum_congr rfl fun k _ => ?_)
  exact congrArg _ (funext fun a => by match a with | ⟨0, _⟩ => rfl | ⟨1, _⟩ => rfl)

/-- The row less its mean, as the variance reads it. -/
theorem cen58_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 : (⟨S256, .f32⟩ : BufTy).Contents (Elt Ideal)) (x13 : (⟨S2x500000, .i32⟩ : BufTy).Contents (Elt Ideal)) (x14 : (⟨S50000, .i32⟩ : BufTy).Contents (Elt Ideal)) (r : Fin 50000) (k : Fin 256) :
    val_main_v58 (F := Ideal) x0 x1 x2 x3 x4 x5 x6 x7 x8 x9 x10 x13 x14 (ix2 r k)
      = val_main_v52 (F := Ideal) x0 x1 x2 x3 x4 x5 x6 x7 x8 x9 x10 x13 x14 (ix2 r k) - Ideal.div (∑ k' : Fin 256, val_main_v52 (F := Ideal) x0 x1 x2 x3 x4 x5 x6 x7 x8 x9 x10 x13 x14 (ix2 r k')) Cert.Spec.w256 := by
  rw [val_main_v58_apply, val_main_v57_apply, Ideal.subf_def]
  have e : idx_main_v57 (ix2 r k) = ix2 r (0 : Fin 1) := funext fun a => by match a with | ⟨0, _⟩ => rfl | ⟨1, _⟩ => rfl
  rw [e, mean_apply]

/-- The row less its mean, as the normalisation reads it. -/
theorem cen65_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 : (⟨S256, .f32⟩ : BufTy).Contents (Elt Ideal)) (x13 : (⟨S2x500000, .i32⟩ : BufTy).Contents (Elt Ideal)) (x14 : (⟨S50000, .i32⟩ : BufTy).Contents (Elt Ideal)) (r : Fin 50000) (k : Fin 256) :
    val_main_v65 (F := Ideal) x0 x1 x2 x3 x4 x5 x6 x7 x8 x9 x10 x13 x14 (ix2 r k)
      = val_main_v52 (F := Ideal) x0 x1 x2 x3 x4 x5 x6 x7 x8 x9 x10 x13 x14 (ix2 r k) - Ideal.div (∑ k' : Fin 256, val_main_v52 (F := Ideal) x0 x1 x2 x3 x4 x5 x6 x7 x8 x9 x10 x13 x14 (ix2 r k')) Cert.Spec.w256 := by
  rw [val_main_v65_apply, val_main_v64_apply, Ideal.subf_def]
  have e : idx_main_v64 (ix2 r k) = ix2 r (0 : Fin 1) := funext fun a => by match a with | ⟨0, _⟩ => rfl | ⟨1, _⟩ => rfl
  rw [e, mean_apply]

/-- The variance column at row `r`: the sum of the squared centred features, divided by the word of 256. -/
theorem var_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 : (⟨S256, .f32⟩ : BufTy).Contents (Elt Ideal)) (x13 : (⟨S2x500000, .i32⟩ : BufTy).Contents (Elt Ideal)) (x14 : (⟨S50000, .i32⟩ : BufTy).Contents (Elt Ideal)) (r : Fin 50000) :
    val_main_v63 (F := Ideal) x0 x1 x2 x3 x4 x5 x6 x7 x8 x9 x10 x13 x14 (ix2 r (0 : Fin 1))
      = Ideal.div (∑ k : Fin 256, (val_main_v52 (F := Ideal) x0 x1 x2 x3 x4 x5 x6 x7 x8 x9 x10 x13 x14 (ix2 r k) - Ideal.div (∑ k' : Fin 256, val_main_v52 (F := Ideal) x0 x1 x2 x3 x4 x5 x6 x7 x8 x9 x10 x13 x14 (ix2 r k')) Cert.Spec.w256) * (val_main_v52 (F := Ideal) x0 x1 x2 x3 x4 x5 x6 x7 x8 x9 x10 x13 x14 (ix2 r k) - Ideal.div (∑ k' : Fin 256, val_main_v52 (F := Ideal) x0 x1 x2 x3 x4 x5 x6 x7 x8 x9 x10 x13 x14 (ix2 r k')) Cert.Spec.w256)) Cert.Spec.w256 := by
  rw [val_main_v63_apply, val_main_v61_apply, val_main_v60_apply, val_main_v62_apply, val_main_cst_11_apply,
    val_main_cst_10_apply, Ideal.hostDivf_def, Ideal.ofBits_def, Ideal.ofBits_def, Ideal.ofBits_zero_f32, zero_add]
  refine congrArg (fun s => Ideal.div s Cert.Spec.w256) (Finset.sum_congr rfl fun k _ => ?_)
  have e : idx_main_v60 (idx_main_v61 (ix2 r (0 : Fin 1))) k = ix2 r k := funext fun a => by match a with | ⟨0, _⟩ => rfl | ⟨1, _⟩ => rfl
  rw [e, val_main_v59_apply, Ideal.mulf_def, cen58_apply]

/-- The last stage at row `r`, feature `q`, is the specification's normalisation of the perceptron-plus-residual row. -/
theorem ln_apply (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S2x500000, .i32⟩ : BufTy).Contents (Elt Ideal)) (x14 : (⟨S50000, .i32⟩ : BufTy).Contents (Elt Ideal)) (r : Fin 50000) (q : Fin 256) :
    val_main_v76 (F := Ideal) x0 x1 x2 x3 x4 x5 x6 x7 x8 x9 x10 x11 x12 x13 x14 (ix2 r q)
      = Cert.Spec.lnRow (fun j => val_main_v52 (F := Ideal) x0 x1 x2 x3 x4 x5 x6 x7 x8 x9 x10 x13 x14 (ix2 r j)) (fun j => x11 (ix1 j)) (fun j => x12 (ix1 j)) q := by
  rw [val_main_v76_apply, val_main_v73_apply, val_main_v70_apply, val_main_v69_apply, val_main_v68_apply,
    val_main_v67_apply, val_main_v66_apply, val_main_cst_12_apply, val_main_v72_apply, val_main_v71_apply,
    val_main_v75_apply, val_main_v74_apply]
  have e69 : idx_main_v69 (ix2 r q) = ix2 r (0 : Fin 1) := funext fun a => by match a with | ⟨0, _⟩ => rfl | ⟨1, _⟩ => rfl
  have e72 : idx_main_v71 (idx_main_v72 (ix2 r q)) = ix1 q := funext fun a => by match a with | ⟨0, _⟩ => rfl
  have e75 : idx_main_v74 (idx_main_v75 (ix2 r q)) = ix1 q := funext fun a => by match a with | ⟨0, _⟩ => rfl
  rw [e69, e72, e75, var_apply, cen65_apply, Ideal.addf_def, Ideal.addf_def, Ideal.mulf_def, Ideal.mulf_def,
    Ideal.hostUnary_rsqrt_def, Ideal.ofBits_def]
  rfl

/-- The reference's last stage is the node updates of its mean-message stage and its gathered graph features. -/
theorem ref_node (x0 : (⟨S50000x256, .f32⟩ : BufTy).Contents (Elt Ideal)) (x1 : (⟨S500000x128, .f32⟩ : BufTy).Contents (Elt Ideal)) (x2 : (⟨S64x64, .f32⟩ : BufTy).Contents (Elt Ideal)) (x3 : (⟨S384x512, .f32⟩ : BufTy).Contents (Elt Ideal)) (x4 : (⟨S512, .f32⟩ : BufTy).Contents (Elt Ideal)) (x5 : (⟨S512x128, .f32⟩ : BufTy).Contents (Elt Ideal)) (x6 : (⟨S128, .f32⟩ : BufTy).Contents (Elt Ideal)) (x7 : (⟨S448x1024, .f32⟩ : BufTy).Contents (Elt Ideal)) (x8 : (⟨S1024, .f32⟩ : BufTy).Contents (Elt Ideal)) (x9 : (⟨S1024x256, .f32⟩ : BufTy).Contents (Elt Ideal)) (x10 x11 x12 : (⟨S256, .f32⟩ : BufTy).Contents (Elt Ideal)) (x13 : (⟨S2x500000, .i32⟩ : BufTy).Contents (Elt Ideal)) (x14 : (⟨S50000, .i32⟩ : BufTy).Contents (Elt Ideal)) :
    val_main_v76 (F := Ideal) x0 x1 x2 x3 x4 x5 x6 x7 x8 x9 x10 x11 x12 x13 x14
      = Cert.Spec.nodeOutN 50000 x0 (val_main_v33 (F := Ideal) x0 x1 x3 x4 x5 x6 x13) (val_main_v40 (F := Ideal) x2 x14)
          x7 x8 x9 x10 x11 x12 := by
  funext i
  obtain ⟨r, q, rfl⟩ : ∃ (r : Fin 50000) (q : Fin 256), i = ix2 r q := ⟨i 0, i 1, eq_ix2 i⟩
  rw [ln_apply]
  show Cert.Spec.lnRow _ _ _ q = Cert.Spec.lnRow (Cert.Spec.nodePreRow (fun l => x0 (ix2 r l))
    (fun l => val_main_v33 (F := Ideal) x0 x1 x3 x4 x5 x6 x13 (ix2 r l)) (fun l => val_main_v40 (F := Ideal) x2 x14 (ix2 r l)) x7 x8 x9 x10)
    (fun j => x11 (ix1 j)) (fun j => x12 (ix1 j)) q
  rw [funext (y_apply x0 x1 x2 x3 x4 x5 x6 x7 x8 x9 x10 x13 x14 r)]

end Cert.ReferenceIdeal.RefNode

end
-- ==== Proof.RefTerms.lean ====
/-
  The reference program's index and mean-message stages are the kernel program's named host terms: the same
  operations over the other program's names for the same shapes and dimension records.
-/
import proofs.«426684_j53730040873194_1_alg».proof.Proof.Gen.ReferenceIdeal.Read
import proofs.«426684_j53730040873194_1_alg».proof.Proof.HostTerms

noncomputable section

namespace Cert.ReferenceIdeal.RefTerms

open Cert.ReferenceIdeal Cert.ReferenceIdeal.Gen Cert.ReferenceIdeal.Read Idealize.ShloMosaic

/-- The reference's gathered source features are the gather at the wrapped source-node indices. -/
theorem gatherX_eq (x0 : (⟨S50000x256, .f32⟩ : BufTy).Contents (Elt Ideal)) (x13 : (⟨S2x500000, .i32⟩ : BufTy).Contents (Elt Ideal)) :
    val_main_v10 (F := Ideal) x0 x13
      = Host.gather Cert.KernelIdeal.gather_S50000x256_S500000x1_S500000x256_1_0_n_n_0_1_1256 x0
          (Cert.KernelIdeal.HostTerms.rowIdx (Cert.KernelIdeal.HostTerms.rowOf x13)) := by
  unfold val_main_v10 val_main_v9 val_main_v8 val_main_v7 val_main_v6 val_main_v5 val_main_v4 val_main_v1 val_main_v0
    val_main_c val_main_c_0 Cert.KernelIdeal.HostTerms.rowIdx Cert.KernelIdeal.HostTerms.rowOf
  rfl

/-- The reference's gathered graph features are the gather at the wrapped graph indices. -/
theorem gatherU_eq (x2 : (⟨S64x64, .f32⟩ : BufTy).Contents (Elt Ideal)) (x14 : (⟨S50000, .i32⟩ : BufTy).Contents (Elt Ideal)) :
    val_main_v40 (F := Ideal) x2 x14
      = Host.gather Cert.KernelIdeal.gather_S64x64_S50000x1_S50000x64_1_0_n_n_0_1_164 x2
          (Cert.KernelIdeal.HostTerms.batIdx x14) := by
  unfold val_main_v40 val_main_v39 val_main_v38 val_main_v37 val_main_v36 val_main_v35 val_main_v34
    val_main_c_5 val_main_c_6 Cert.KernelIdeal.HostTerms.batIdx
  rfl

/-- The reference's mean-message stage is the mean message of its edge stage. -/
theorem meanMsg_eq (x0 : (⟨S50000x256, .f32⟩ : BufTy).Contents (Elt Ideal)) (x1 : (⟨S500000x128, .f32⟩ : BufTy).Contents (Elt Ideal)) (x3 : (⟨S384x512, .f32⟩ : BufTy).Contents (Elt Ideal))
    (x4 : (⟨S512, .f32⟩ : BufTy).Contents (Elt Ideal)) (x5 : (⟨S512x128, .f32⟩ : BufTy).Contents (Elt Ideal)) (x6 : (⟨S128, .f32⟩ : BufTy).Contents (Elt Ideal)) (x13 : (⟨S2x500000, .i32⟩ : BufTy).Contents (Elt Ideal)) :
    val_main_v33 (F := Ideal) x0 x1 x3 x4 x5 x6 x13
      = Cert.KernelIdeal.HostTerms.meanMsg (F := Ideal) (val_main_v21 (F := Ideal) x0 x1 x3 x4 x5 x6 x13)
          (Cert.KernelIdeal.HostTerms.colOf x13) := by
  unfold val_main_v33 val_main_v32 val_main_v31 val_main_v30 val_main_v29 val_main_v28 val_main_v27 val_main_v26
    val_main_v25 val_main_v24 val_main_v23 val_main_v22 val_main_v3 val_main_v2
    val_main_cst_1 val_main_cst_2 val_main_cst_3 val_main_cst_4
    Cert.KernelIdeal.HostTerms.meanMsg Cert.KernelIdeal.HostTerms.colOf
  generalize val_main_v21 (F := Ideal) x0 x1 x3 x4 x5 x6 x13 = e
  rfl

end Cert.ReferenceIdeal.RefTerms

end
-- ==== Proof.RefSide.lean ====
/-
  The reference program's result, read: the same network as one function of its arguments. Its edge stage is the
  perceptron of (gathered source features ‖ edge features) row by row, its middle is the mean message per node, its
  node stage the normalised perceptron-plus-residual row by row.

  The edge stage is read one element at a time: each operation of the reference at (r, q) is the matching step of the
  row perceptron, the two products as sums over the contracted coordinate, the biases as broadcasts of a vector over the
  rows, the join of the two feature blocks as a case split on the joined coordinate. The result then composes the three
  stages, the middle and the two gathers under the names the other program gives the same operations.
-/
import proofs.«426684_j53730040873194_1_alg».proof.Proof.Gen.ReferenceIdeal.Run
import proofs.«426684_j53730040873194_1_alg».proof.Proof.Gen.ReferenceIdeal.Read
import proofs.«426684_j53730040873194_1_alg».proof.Proof.HostTerms
import proofs.«426684_j53730040873194_1_alg».proof.Proof.Spec
import proofs.«426684_j53730040873194_1_alg».proof.Proof.LibColumn
import proofs.«426684_j53730040873194_1_alg».proof.Proof.RefNode
import proofs.«426684_j53730040873194_1_alg».proof.Proof.RefTerms
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## The edge stage, one element at a time -/

section Edge

variable (x0 : (⟨S50000x256, .f32⟩ : BufTy).Contents (Elt Ideal)) (x1 : (⟨S500000x128, .f32⟩ : BufTy).Contents (Elt Ideal))
  (x3 : (⟨S384x512, .f32⟩ : BufTy).Contents (Elt Ideal)) (x4 : (⟨S512, .f32⟩ : BufTy).Contents (Elt Ideal))
  (x5 : (⟨S512x128, .f32⟩ : BufTy).Contents (Elt Ideal)) (x6 : (⟨S128, .f32⟩ : BufTy).Contents (Elt Ideal))
  (x13 : (⟨S2x500000, .i32⟩ : BufTy).Contents (Elt Ideal))

/-- The joined row: at (r, l) the concatenation reads the gathered source features for l < 256 and the edge's own
    features, shifted by 256, after. -/
theorem cat_at (r : Fin 500000) (l : Fin 384) :
    Read.val_main_v11 (F := Ideal) x0 x1 x13 (ix2 r l)
      = Cert.Spec.cat2 (A := 256) (B := 128) (N := 384) rfl
          (fun l' => Read.val_main_v10 (F := Ideal) x0 x13 (ix2 r l')) (fun l' => x1 (ix2 r l')) l := by
  unfold Read.val_main_v11 Cert.Spec.cat2
  split
  · next h =>
    exact concatenate_pair_apply_left (t := S500000x384) (s₁ := S500000x256) (s₂ := S500000x128) 1
      (Read.val_main_v10 (F := Ideal) x0 x13) x1 concatenates_S500000x256_S500000x128_S500000x384_d1 (ix2 r l) rfl
      (ix2 r (⟨l.val, h⟩ : Fin 256)) (fun b => by match b with | ⟨0, _⟩ => rfl | ⟨1, _⟩ => rfl)
  · next h =>
    exact concatenate_pair_apply_right (t := S500000x384) (s₁ := S500000x256) (s₂ := S500000x128) 1
      (Read.val_main_v10 (F := Ideal) x0 x13) x1 concatenates_S500000x256_S500000x128_S500000x384_d1 (ix2 r l) rfl rfl
      (ix2 r (⟨l.val - 256, by have := l.isLt; omega⟩ : Fin 128))
      (fun b hb => by match b, hb with | ⟨0, _⟩, _ => rfl | ⟨1, _⟩, hb => exact absurd rfl hb)
      (by show l.val - 256 + 256 = l.val; omega)

/-- The first product at (r, k): the joined row against column k of the first weight. -/
theorem v12_at (r : Fin 500000) (k : Fin 512) :
    Read.val_main_v12 (F := Ideal) x0 x1 x3 x13 (ix2 r k)
      = ∑ l : Fin 384, Read.val_main_v11 (F := Ideal) x0 x1 x13 (ix2 r l) * x3 (ix2 l k) := by
  rw [Read.val_main_v12_apply]
  refine Finset.sum_congr rfl fun l _ => ?_
  have e1 : Read.lidx_main_v12 (ix2 r k) l = ix2 r l :=
    funext fun a => by match a with | ⟨0, _⟩ => rfl | ⟨1, _⟩ => rfl
  have e2 : Read.ridx_main_v12 (ix2 r k) l = ix2 l k :=
    funext fun a => by match a with | ⟨0, _⟩ => rfl | ⟨1, _⟩ => rfl
  rw [e1, e2]

/-- The first bias, broadcast over the rows, at (r, k). -/
theorem v14_at (r : Fin 500000) (k : Fin 512) : Read.val_main_v14 (F := Ideal) x4 (ix2 r k) = x4 (ix1 k) := by
  rw [Read.val_main_v14_apply, Read.val_main_v13_apply]
  exact congrArg x4 (funext fun a => by match a with | ⟨0, _⟩ => rfl)

/-- The floor of the relu is the zero word everywhere. -/
theorem v16_at (j : S500000x512.Idx) : Read.val_main_v16 (F := Ideal) j = Cert.Spec.w0 := by
  rw [Read.val_main_v16_apply, Read.val_main_cst_apply]
  rfl

/-- The second product at (r, q): the hidden row against column q of the second weight. -/
theorem v18_at (r : Fin 500000) (q : Fin 128) :
    Read.val_main_v18 (F := Ideal) x0 x1 x3 x4 x5 x13 (ix2 r q)
      = ∑ k : Fin 512, Read.val_main_v17 (F := Ideal) x0 x1 x3 x4 x13 (ix2 r k) * x5 (ix2 k q) := by
  rw [Read.val_main_v18_apply]
  refine Finset.sum_congr rfl fun k _ => ?_
  have e1 : Read.lidx_main_v18 (ix2 r q) k = ix2 r k :=
    funext fun a => by match a with | ⟨0, _⟩ => rfl | ⟨1, _⟩ => rfl
  have e2 : Read.ridx_main_v18 (ix2 r q) k = ix2 k q :=
    funext fun a => by match a with | ⟨0, _⟩ => rfl | ⟨1, _⟩ => rfl
  rw [e1, e2]

/-- The second bias, broadcast over the rows, at (r, q). -/
theorem v20_at (r : Fin 500000) (q : Fin 128) : Read.val_main_v20 (F := Ideal) x6 (ix2 r q) = x6 (ix1 q) := by
  rw [Read.val_main_v20_apply, Read.val_main_v19_apply]
  exact congrArg x6 (funext fun a => by match a with | ⟨0, _⟩ => rfl)

/-- The edge stage at (r, q) is the perceptron of the joined row r at output feature q. -/
theorem edge_at (r : Fin 500000) (q : Fin 128) :
    Read.val_main_v21 (F := Ideal) x0 x1 x3 x4 x5 x6 x13 (ix2 r q)
      = Cert.Spec.mlpRow (Cert.Spec.cat2 (A := 256) (B := 128) (N := 384) rfl
            (fun l => Read.val_main_v10 (F := Ideal) x0 x13 (ix2 r l)) (fun l => x1 (ix2 r l)))
          (fun l k => x3 (ix2 l k)) (fun k => x4 (ix1 k)) (fun k j => x5 (ix2 k j)) (fun j => x6 (ix1 j)) q := by
  rw [Read.val_main_v21_apply, v18_at, v20_at]
  unfold Cert.Spec.mlpRow
  simp only [Read.val_main_v17_apply, Read.val_main_v15_apply, v12_at, v14_at, v16_at, cat_at,
    Ideal.addf_def, Ideal.maximumf_def]

/-- The reference's edge stage is the edge perceptron of the gathered source features and the edge features. -/
theorem ref_edge :
    Read.val_main_v21 (F := Ideal) x0 x1 x3 x4 x5 x6 x13
      = Cert.Spec.edgeOutN 500000 (Read.val_main_v10 (F := Ideal) x0 x13) x1 x3 x4 x5 x6 := by
  funext i
  have hi : i = ix2 ⟨(i 0).val, (i 0).isLt⟩ ⟨(i 1).val, (i 1).isLt⟩ :=
    funext fun a => by match a with | ⟨0, _⟩ => rfl | ⟨1, _⟩ => rfl
  calc Read.val_main_v21 (F := Ideal) x0 x1 x3 x4 x5 x6 x13 i
      = Read.val_main_v21 (F := Ideal) x0 x1 x3 x4 x5 x6 x13 (ix2 ⟨(i 0).val, (i 0).isLt⟩ ⟨(i 1).val, (i 1).isLt⟩) :=
        congrArg _ hi
    _ = _ := edge_at x0 x1 x3 x4 x5 x6 x13 _ _

end Edge

/-! ## The whole result -/

/-- The reference's result is the node updates of the mean messages of the edge perceptron's outputs. -/
theorem ref_value (m : (ℓ : Loc nD τ sig) → Buf (Elt Ideal) ℓ) (c : Dev nD) :
    Cert.ReferenceIdeal.Value.res_main_v76 (F := Ideal) m c
      = Cert.Spec.nodeOutN 50000 (m ((c.tc : Thread nD τ).loc main_arg0))
          (Cert.KernelIdeal.HostTerms.meanMsg (F := Ideal)
            (Cert.Spec.edgeOutN 500000
              (Host.gather Cert.KernelIdeal.gather_S50000x256_S500000x1_S500000x256_1_0_n_n_0_1_1256 (m ((c.tc : Thread nD τ).loc main_arg0))
                (Cert.KernelIdeal.HostTerms.rowIdx (Cert.KernelIdeal.HostTerms.rowOf (m ((c.tc : Thread nD τ).loc main_arg13)))))
              (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
            (Cert.KernelIdeal.HostTerms.colOf (m ((c.tc : Thread nD τ).loc main_arg13))))
          (Host.gather Cert.KernelIdeal.gather_S64x64_S50000x1_S50000x64_1_0_n_n_0_1_164 (m ((c.tc : Thread nD τ).loc main_arg2))
            (Cert.KernelIdeal.HostTerms.batIdx (m ((c.tc : Thread nD τ).loc main_arg14))))
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [Read.val_main_v76_eq, RefNode.ref_node, RefTerms.meanMsg_eq, ref_edge, RefTerms.gatherX_eq, RefTerms.gatherU_eq]

end Cert.ReferenceIdeal.RefValue

end
-- ==== Proof.lean ====
/-
  The certificate. Both programs compute one message-passing step of a graph network: an edge perceptron on
  (source-node features ‖ edge features), the mean of the messages arriving at each node, a node perceptron on
  (node features ‖ mean message ‖ graph features) with a residual, and a normalisation over the features. The kernel
  program tiles the two perceptrons over rows (5000 edges, 2000 nodes at a time) and feeds its matrix units narrower
  floats; over the extended reals a change of format is the identity and every step acts on a row alone, so the
  tiles compute the rows of the same whole-array function. The one real difference is at an index outside its axis:
  the kernel program's gather fills such a row where the reference's clamps. The precondition keeps every source-node
  index in [0, 50000) and every graph index in [0, 64), where both are the plain gather.

  The three frames are the generated ones (the reference's is its run with the result dropped); the ideal pass
  rewrote nothing, so `preserves` is trivial; the value claim joins the kernel program's run (its result read back
  through both regions) with the reference's run (its composed term read stage by stage) at one function `G`.
-/
import proofs.«426684_j53730040873194_1_alg».proof.Defs
import proofs.«426684_j53730040873194_1_alg».proof.Proof.Gen.Kernel
import proofs.«426684_j53730040873194_1_alg».proof.Proof.Gen.Kernel.Skeleton
import proofs.«426684_j53730040873194_1_alg».proof.Proof.Gen.Kernel.Launch
import proofs.«426684_j53730040873194_1_alg».proof.Proof.Gen.Kernel.Points
import proofs.«426684_j53730040873194_1_alg».proof.Proof.Gen.Kernel.Frame
import proofs.«426684_j53730040873194_1_alg».proof.Proof.Gen.KernelIdeal
import proofs.«426684_j53730040873194_1_alg».proof.Proof.Gen.KernelIdeal.Skeleton
import proofs.«426684_j53730040873194_1_alg».proof.Proof.Gen.KernelIdeal.Launch
import proofs.«426684_j53730040873194_1_alg».proof.Proof.Gen.KernelIdeal.Points
import proofs.«426684_j53730040873194_1_alg».proof.Proof.Gen.KernelIdeal.Frame
import proofs.«426684_j53730040873194_1_alg».proof.Proof.Gen.ReferenceIdeal
import proofs.«426684_j53730040873194_1_alg».proof.Proof.Gen.Pre_finite_inputs
import proofs.«426684_j53730040873194_1_alg».proof.Proof.Gen.ReferenceIdeal.Run
import proofs.«426684_j53730040873194_1_alg».proof.Proof.Gen.ReferenceIdeal.Read
import proofs.«426684_j53730040873194_1_alg».proof.Proof.KernelValue
import proofs.«426684_j53730040873194_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the same array: `G` of the arguments. -/
theorem algebraic : Cert.algebraic_KernelIdeal_ReferenceIdeal := by
  intro m ρ m' ρ' hpre hagree
  refine ⟨fun c => Cert.KernelIdeal.KValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelIdeal.KValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.RefValue.ref_value, h0, h1, h2, h3, h4, h5, h6, h7, h8, h9, h10, h11, h12, h13, h14]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
